-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_scale" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x128 : Shape := ⟨4, ![4, 16, 2048, 128]⟩
abbrev S_ : Shape := ⟨0, ![]⟩

class Facts : Prop where
  bcast_S_S4x16x2048x128 : S_.BroadcastsInDim S4x16x2048x128 (![] : Fin 0 → Fin S4x16x2048x128.rank)
  reducesTo_S4x16x2048x128_S_d0_1_2_3 : S4x16x2048x128.ReducesTo [0, 1, 2, 3] S_
  h_S_ : 0 < S_.numel

variable [Facts]

def fn {F : FTy → Type} [FloatOps F] (main_arg0 : FVec F S4x16x2048x128 .f32) (main_arg1 : FVec F S4x16x2048x128 .f32) (main_arg2 : FVec F S4x16x2048x128 .f32) : IVec S_ 1 :=
  let main_v0 : FVec F S4x16x2048x128 .f32 := Host.absf main_arg0
  let main_cst : FVec F S_ .f32 := constant S_ .f32 0x7F800000#32
  let main_v1 : FVec F S4x16x2048x128 .f32 := broadcastInDim S4x16x2048x128 ![] bcast_S_S4x16x2048x128 main_cst
  let main_v2 : IVec S4x16x2048x128 1 := cmpf .olt main_v0 main_v1
  let main_c : IVec S_ 1 := constantI S_ 1 1#1
  let main_v3 : IVec S_ 1 := (fun x v => Host.reduce IntOp.andi x v reducesTo_S4x16x2048x128_S_d0_1_2_3 h_S_) main_v2 main_c
  let main_v4 : FVec F S4x16x2048x128 .f32 := Host.absf main_arg1
  let main_cst_0 : FVec F S_ .f32 := constant S_ .f32 0x7F800000#32
  let main_v5 : FVec F S4x16x2048x128 .f32 := broadcastInDim S4x16x2048x128 ![] bcast_S_S4x16x2048x128 main_cst_0
  let main_v6 : IVec S4x16x2048x128 1 := cmpf .olt main_v4 main_v5
  let main_c_1 : IVec S_ 1 := constantI S_ 1 1#1
  let main_v7 : IVec S_ 1 := (fun x v => Host.reduce IntOp.andi x v reducesTo_S4x16x2048x128_S_d0_1_2_3 h_S_) main_v6 main_c_1
  let main_v8 : IVec S_ 1 := andi main_v3 main_v7
  let main_v9 : FVec F S4x16x2048x128 .f32 := Host.absf main_arg2
  let main_cst_2 : FVec F S_ .f32 := constant S_ .f32 0x7F800000#32
  let main_v10 : FVec F S4x16x2048x128 .f32 := broadcastInDim S4x16x2048x128 ![] bcast_S_S4x16x2048x128 main_cst_2
  let main_v11 : IVec S4x16x2048x128 1 := cmpf .olt main_v9 main_v10
  let main_c_3 : IVec S_ 1 := constantI S_ 1 1#1
  let main_v12 : IVec S_ 1 := (fun x v => Host.reduce IntOp.andi x v reducesTo_S4x16x2048x128_S_d0_1_2_3 h_S_) main_v11 main_c_3
  let main_v13 : IVec S_ 1 := andi main_v8 main_v12
  main_v13
-- ==== Kernel.lean ====
abbrev S4x16x2048x128 : Shape := ⟨4, ![4, 16, 2048, 128]⟩
abbrev S64x2048x128 : Shape := ⟨3, ![64, 2048, 128]⟩
abbrev S1x1024x128 : Shape := ⟨3, ![1, 1024, 128]⟩
abbrev S1x1024x1 : Shape := ⟨3, ![1, 1024, 1]⟩
abbrev S1x1024x1024 : Shape := ⟨3, ![1, 1024, 1024]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S4x16x2048x128, .f32⟩
  | .hbm, ⟨3, _⟩ => ⟨S64x2048x128, .f32⟩
  | .hbm, ⟨4, _⟩ => ⟨S64x2048x128, .f32⟩
  | .hbm, ⟨5, _⟩ => ⟨S64x2048x128, .f32⟩
  | .hbm, ⟨6, _⟩ => ⟨S64x2048x128, .f32⟩
  | .hbm, ⟨7, _⟩ => ⟨S4x16x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x128, .f32⟩
  | _, _ => ⟨S4x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![64, 2, 2], ![false, false, false]⟩

def k0_cond2 (i : grid0.Coords) : BitVec 1 :=
  let arg2 : BitVec 32 := BitVec.ofNat 32 (i 2).val
  let c1_i32 : BitVec 32 := 1#32
  let v44 : BitVec 1 := Scalar.cmpi .eq arg2 c1_i32
  let v45 : BitVec 32 := Scalar.extui v44
  let c0_i32_31 : BitVec 32 := 0#32
  let v46 : BitVec 1 := Scalar.cmpi .ne v45 c0_i32_31
  v46

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x16x2048x128_S64x2048x128 : S4x16x2048x128.ShapeCasts S64x2048x128
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1x1024x128 : S1x1024x128.ShapeCasts S1x1024x128
  bitsLt_bf16_f32 : FTy.bits .bf16 < FTy.bits .f32
  reduces_S1x1024x1024_S1x1024 : S1x1024x1024.Reduces [2] S1x1024
  shapeCasts_S1x1024_S1x1024x1 : S1x1024.ShapeCasts S1x1024x1
  broadcasts_S1x1024x1_S1x1024x1024 : S1x1024x1.Broadcasts S1x1024x1024
  broadcasts_S1x1024x1_S1x1024x128 : S1x1024x1.Broadcasts S1x1024x128
  shapeCasts_S64x2048x128_S4x16x2048x128 : S64x2048x128.ShapeCasts S4x16x2048x128
  dot_S1x1024x128_S1x1024x128_S1x1024x1024_2_2_1_1_0_0_wf : DotDims.WF S1x1024x128 S1x1024x128 S1x1024x1024 [2] [2] [1] [1] [0] [0]
  dot_S1x1024x1024_S1x1024x128_S1x1024x128_2_1_1_2_0_0_wf : DotDims.WF S1x1024x1024 S1x1024x128 S1x1024x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S64x2048x128.size a
  hwx0_0 : ∀ i : grid0.Coords, EltTy.bits .f32 = 32 ∨ (Rect.block (s := S64x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S64x2048x128.size a
  hwx0_1 : ∀ i : grid0.Coords, EltTy.bits .f32 = 32 ∨ (Rect.block (s := S64x2048x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S64x2048x128.size a
  hwx0_2 : ∀ i : grid0.Coords, EltTy.bits .f32 = 32 ∨ (Rect.block (s := S64x2048x128) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S64x2048x128.size a
  hwx0_3 : ∀ i : grid0.Coords, EltTy.bits .f32 = 32 ∨ (Rect.block (s := S64x2048x128) S1x1024x128.size (cc0_transform_3 i) (hinb0_3 i)).WholeWords (EltTy.packing .f32)

variable [Facts₀]

def dot_S1x1024x128_S1x1024x128_S1x1024x1024_2_2_1_1_0_0 : DotDims S1x1024x128 S1x1024x128 S1x1024x1024 where
  lhsContracting := [2]
  rhsContracting := [2]
  lhsNonContracting := [1]
  rhsNonContracting := [1]
  lhsBatch := [0]
  rhsBatch := [0]
  wf := dot_S1x1024x128_S1x1024x128_S1x1024x1024_2_2_1_1_0_0_wf
def dot_S1x1024x1024_S1x1024x128_S1x1024x128_2_1_1_2_0_0 : DotDims S1x1024x1024 S1x1024x128 S1x1024x128 where
  lhsContracting := [2]
  rhsContracting := [1]
  lhsNonContracting := [1]
  rhsNonContracting := [2]
  lhsBatch := [0]
  rhsBatch := [0]
  wf := dot_S1x1024x1024_S1x1024x128_S1x1024x128_2_1_1_2_0_0_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x16x2048x128 : Shape := ⟨4, ![4, 16, 2048, 128]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S4x16x2048x128, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S_, .f32⟩
  | .hbm, ⟨8, _⟩ => ⟨S4x16x2048, .f32⟩
  | .hbm, ⟨9, _⟩ => ⟨S_, .f32⟩
  | .hbm, ⟨10, _⟩ => ⟨S4x16x2048, .f32⟩
  | .hbm, ⟨11, _⟩ => ⟨S4x16x2048, .f32⟩
  | .hbm, ⟨12, _⟩ => ⟨S4x16x2048x1, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S4x16x2048x128, .f32⟩
  | _, _ => ⟨S4x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x128_S4x16x2048x128_S4x16x2048x2048_3_3_2_2_01_01_wf : DotDims.WF S4x16x2048x128 S4x16x2048x128 S4x16x2048x2048 [3] [3] [2] [2] [0, 1] [0, 1]
  dot_S4x16x2048x2048_S4x16x2048x128_S4x16x2048x128_3_2_2_3_01_01_wf : DotDims.WF S4x16x2048x2048 S4x16x2048x128 S4x16x2048x128 [3] [2] [2] [3] [0, 1] [0, 1]

variable [Facts₀]

def dot_S4x16x2048x128_S4x16x2048x128_S4x16x2048x2048_3_3_2_2_01_01 : DotDims S4x16x2048x128 S4x16x2048x128 S4x16x2048x2048 where
  lhsContracting := [3]
  rhsContracting := [3]
  lhsNonContracting := [2]
  rhsNonContracting := [2]
  lhsBatch := [0, 1]
  rhsBatch := [0, 1]
  wf := dot_S4x16x2048x128_S4x16x2048x128_S4x16x2048x2048_3_3_2_2_01_01_wf
def dot_S4x16x2048x2048_S4x16x2048x128_S4x16x2048x128_3_2_2_3_01_01 : DotDims S4x16x2048x2048 S4x16x2048x128 S4x16x2048x128 where
  lhsContracting := [3]
  rhsContracting := [2]
  lhsNonContracting := [2]
  rhsNonContracting := [3]
  lhsBatch := [0, 1]
  rhsBatch := [0, 1]
  wf := dot_S4x16x2048x2048_S4x16x2048x128_S4x16x2048x128_3_2_2_3_01_01_wf

class Facts : Prop extends Facts₀ where

variable [Facts]
-- ==== Proof.Payload.lean ====
/-
  What one grid point of the kernel leaves behind, as pure terms of what it loads.

  A point with key-block index 0 resets the running maximum, sum and accumulator and then takes one block's
  step from the reset values; a point with key-block index 1 takes the step from what the point before left and
  then divides the accumulator by the sum. The step's arithmetic is the skeleton's payloads, composed here in the
  order the body stores and reloads them.
-/
import proofs.«406588_j47674136985727_3_alg».proof.Proof.Gen.KernelIdeal.Skeleton

noncomputable section

namespace Cert.KernelIdeal.Attn

open Idealize.ShloMosaic Cert.KernelIdeal Cert.KernelIdeal.Gen

variable {F : FTy → Type} [FloatOps F] [Named F]

/-- The running maximum a first-block point leaves: the step's maximum from the reset floor. -/
def firstMax (q k : Vec F S1x1024x128 .f32) : Vec F S1x1024x1 .f32 :=
  k0_pay2 (k0_pay8 q k (k0_pay4 (F := F)))

/-- The running sum a first-block point leaves: the step's sum from the reset floor and the reset zero sum. -/
def firstSum (q k : Vec F S1x1024x128 .f32) : Vec F S1x1024x1 .f32 :=
  k0_pay12 q k (k0_pay4 (F := F)) (k0_pay5 (F := F))

/-- The accumulator a first-block point leaves: the step's accumulator from the reset floor and the reset zero block. -/
def firstAcc (q k v : Vec F S1x1024x128 .f32) : Vec F S1x1024x128 .f32 :=
  k0_pay1 (k0_pay9 q k (k0_pay4 (F := F))) (k0_pay11 q k (k0_pay4 (F := F))) v (k0_pay6 (F := F))

/-- The running maximum a second-block point leaves, from the maximum `m` the point before left. -/
def nextMax (q k : Vec F S1x1024x128 .f32) (m : Vec F S1x1024x1 .f32) : Vec F S1x1024x1 .f32 :=
  k0_pay2 (k0_pay8 q k m)

/-- The running sum a second-block point leaves, from the maximum `m` and sum `l` the point before left. -/
def nextSum (q k : Vec F S1x1024x128 .f32) (m l : Vec F S1x1024x1 .f32) : Vec F S1x1024x1 .f32 :=
  k0_pay12 q k m l

/-- The accumulator a second-block point leaves, from the maximum `m` and accumulator `acc` the point before left. -/
def nextAcc (q k v : Vec F S1x1024x128 .f32) (m : Vec F S1x1024x1 .f32) (acc : Vec F S1x1024x128 .f32) :
    Vec F S1x1024x128 .f32 :=
  k0_pay1 (k0_pay9 q k m) (k0_pay11 q k m) v acc

/-- The output block a second-block point stores: its accumulator times the reciprocal of its sum. -/
def outBlock (q k v : Vec F S1x1024x128 .f32) (m l : Vec F S1x1024x1 .f32) (acc : Vec F S1x1024x128 .f32) :
    Vec F S1x1024x128 .f32 :=
  k0_pay3 (nextAcc q k v m acc) (nextSum q k m l)

end Cert.KernelIdeal.Attn

end
-- ==== Proof.Pieces.lean ====
/-
  What each case of the body leaves in the carried scratch buffers and in the output's staging buffer, read off
  the stores the run found: every buffer is stored whole, so what it ends holding is the last store's payload,
  with each reload of a buffer read as the store before it.
-/
import proofs.«406588_j47674136985727_3_alg».proof.Proof.Gen.KernelIdeal.Frame
import proofs.«406588_j47674136985727_3_alg».proof.Proof.Payload
import Idealize.ShloMosaic.Lib.Pipeline.Value
import Idealize.ShloMosaic.Lib.Tactic

set_option maxRecDepth 16384

noncomputable section

namespace Cert.KernelIdeal.Attn

open Idealize.ShloMosaic Idealize.ShloMosaic.TcCoe Idealize.SL.Sem Cert.KernelIdeal Cert.KernelIdeal.Gen

variable {F : FTy → Type} [FloatOps F] [Named F]

theorem hz3 : (![0, 0, 0] : Fin 3 → Nat) = fun _ => 0 := funext fun a => by fin_cases a <;> rfl

/-- A first-block point leaves, in the running-maximum scratch, the step's maximum taken from the reset floor: the floor is stored, reloaded, and the new maximum stored over it. -/
theorem firstMax_found (c : Dev nD) (i : grid0.Coords) (a3 : Memref sig .tc .vmem S1x1024x128 .f32) (h3 : a3.IsWhole)
    (a4 : Memref sig .tc .vmem S1x1024x128 .f32) (h4 : a4.IsWhole) (a5 : Memref sig .tc .vmem S1x1024x128 .f32) (h5 : a5.IsWhole)
    (a6 : Memref sig .tc .vmem S1x1024x128 .f32) (h6 : a6.IsWhole) (a7 : Memref sig .tc .vmem S1x1024x1 .f32) (h7 : a7.IsWhole)
    (a8 : Memref sig .tc .vmem S1x1024x1 .f32) (h8 : a8.IsWhole) (a9 : Memref sig .tc .vmem S1x1024x128 .f32) (h9 : a9.IsWhole) (hc0 : cond0_0 i) (hc1 : ¬cond0_1 i)
    (x0 x1 x2 : Vec F S1x1024x128 .f32) :
    sout0_A_0 c i a3 h3 a4 h4 a5 h5 a6 h6 a7 h7 a8 h8 a9 h9 hc0 hc1 x0 x1 x2 = firstMax x0 x1 := by
  unfold sout0_A_0
  rw [View.read_writes_eq_canon _ _ _ (scover0_A_0 c i a3 h3 a4 h4 a5 h5 a6 h6 a7 h7 a8 h8 a9 h9 hc0 hc1 x0 x1 x2)]
  unfold kernelRun0_A
  dsimp only
  sl_unfold_words
  rw [View.canon_cons_unit_zero (S := S1x1024x1) hz3]
  unfold firstMax
  simp only [View.readAt_eq_ld, h3.read_unread, h4.read_unread, h5.read_unread, h7.read_unread, h8.read_unread, h9.read_unread,
    View.ld_unit_zero (S := S1x1024x128) hz3, View.ld_unit_zero (S := S1x1024x1) hz3,
    View.readCov_unit_zero (S := S1x1024x1) _ hz3, View.readCov_unit_zero (S := S1x1024x128) _ hz3]

/-- A first-block point leaves, in the running-sum scratch, the step's sum taken from the reset floor and the reset zero sum. -/
theorem firstSum_found (c : Dev nD) (i : grid0.Coords) (a3 : Memref sig .tc .vmem S1x1024x128 .f32) (h3 : a3.IsWhole)
    (a4 : Memref sig .tc .vmem S1x1024x128 .f32) (h4 : a4.IsWhole) (a5 : Memref sig .tc .vmem S1x1024x128 .f32) (h5 : a5.IsWhole)
    (a6 : Memref sig .tc .vmem S1x1024x128 .f32) (h6 : a6.IsWhole) (a7 : Memref sig .tc .vmem S1x1024x1 .f32) (h7 : a7.IsWhole)
    (a8 : Memref sig .tc .vmem S1x1024x1 .f32) (h8 : a8.IsWhole) (a9 : Memref sig .tc .vmem S1x1024x128 .f32) (h9 : a9.IsWhole) (hc0 : cond0_0 i) (hc1 : ¬cond0_1 i)
    (x0 x1 x2 : Vec F S1x1024x128 .f32) :
    sout0_A_1 c i a3 h3 a4 h4 a5 h5 a6 h6 a7 h7 a8 h8 a9 h9 hc0 hc1 x0 x1 x2 = firstSum x0 x1 := by
  unfold sout0_A_1
  rw [View.read_writes_eq_canon _ _ _ (scover0_A_1 c i a3 h3 a4 h4 a5 h5 a6 h6 a7 h7 a8 h8 a9 h9 hc0 hc1 x0 x1 x2)]
  unfold kernelRun0_A
  dsimp only
  sl_unfold_words
  rw [View.canon_cons_unit_zero (S := S1x1024x1) hz3]
  unfold firstSum
  simp only [View.readAt_eq_ld, h3.read_unread, h4.read_unread, h5.read_unread, h7.read_unread, h8.read_unread, h9.read_unread,
    View.ld_unit_zero (S := S1x1024x128) hz3, View.ld_unit_zero (S := S1x1024x1) hz3,
    View.readCov_unit_zero (S := S1x1024x1) _ hz3, View.readCov_unit_zero (S := S1x1024x128) _ hz3]

/-- A first-block point leaves, in the accumulator scratch, the step's accumulator taken from the reset floor and the reset zero block. -/
theorem firstAcc_found (c : Dev nD) (i : grid0.Coords) (a3 : Memref sig .tc .vmem S1x1024x128 .f32) (h3 : a3.IsWhole)
    (a4 : Memref sig .tc .vmem S1x1024x128 .f32) (h4 : a4.IsWhole) (a5 : Memref sig .tc .vmem S1x1024x128 .f32) (h5 : a5.IsWhole)
    (a6 : Memref sig .tc .vmem S1x1024x128 .f32) (h6 : a6.IsWhole) (a7 : Memref sig .tc .vmem S1x1024x1 .f32) (h7 : a7.IsWhole)
    (a8 : Memref sig .tc .vmem S1x1024x1 .f32) (h8 : a8.IsWhole) (a9 : Memref sig .tc .vmem S1x1024x128 .f32) (h9 : a9.IsWhole) (hc0 : cond0_0 i) (hc1 : ¬cond0_1 i)
    (x0 x1 x2 : Vec F S1x1024x128 .f32) :
    sout0_A_2 c i a3 h3 a4 h4 a5 h5 a6 h6 a7 h7 a8 h8 a9 h9 hc0 hc1 x0 x1 x2 = firstAcc x0 x1 x2 := by
  unfold sout0_A_2
  rw [View.read_writes_eq_canon _ _ _ (scover0_A_2 c i a3 h3 a4 h4 a5 h5 a6 h6 a7 h7 a8 h8 a9 h9 hc0 hc1 x0 x1 x2)]
  unfold kernelRun0_A
  dsimp only
  sl_unfold_words
  rw [View.canon_cons_unit_zero (S := S1x1024x128) hz3]
  unfold firstAcc
  simp only [View.readAt_eq_ld, h3.read_unread, h4.read_unread, h5.read_unread, h7.read_unread, h8.read_unread, h9.read_unread,
    View.ld_unit_zero (S := S1x1024x128) hz3, View.ld_unit_zero (S := S1x1024x1) hz3,
    View.readCov_unit_zero (S := S1x1024x1) _ hz3, View.readCov_unit_zero (S := S1x1024x128) _ hz3]

/-- A second-block point leaves, in the output's staging buffer, the accumulator it has just stored times the reciprocal of the sum it has just stored, both taken from what the point before left. -/
theorem outBlock_found (c : Dev nD) (i : grid0.Coords) (a3 : Memref sig .tc .vmem S1x1024x128 .f32) (h3 : a3.IsWhole)
    (a4 : Memref sig .tc .vmem S1x1024x128 .f32) (h4 : a4.IsWhole) (a5 : Memref sig .tc .vmem S1x1024x128 .f32) (h5 : a5.IsWhole)
    (a6 : Memref sig .tc .vmem S1x1024x128 .f32) (h6 : a6.IsWhole) (a7 : Memref sig .tc .vmem S1x1024x1 .f32) (h7 : a7.IsWhole)
    (a8 : Memref sig .tc .vmem S1x1024x1 .f32) (h8 : a8.IsWhole) (a9 : Memref sig .tc .vmem S1x1024x128 .f32) (h9 : a9.IsWhole) (hc0 : ¬cond0_0 i) (hc1 : cond0_1 i)
    (x0 x1 x2 : Vec F S1x1024x128 .f32) (xs0 xs1 : Vec F S1x1024x1 .f32) (xs2 : Vec F S1x1024x128 .f32) :
    out0_B_3 c i a3 h3 a4 h4 a5 h5 a6 h6 a7 h7 a8 h8 a9 h9 hc0 hc1 x0 x1 x2 xs0 xs1 xs2 = outBlock x0 x1 x2 xs0 xs1 xs2 := by
  unfold out0_B_3
  rw [View.read_writes_eq_canon _ _ _ (cover0_B_3 c i a3 h3 a4 h4 a5 h5 a6 h6 a7 h7 a8 h8 a9 h9 hc0 hc1 x0 x1 x2 xs0 xs1 xs2)]
  unfold kernelRun0_B
  dsimp only
  sl_unfold_words
  rw [View.canon_cons_unit_zero (S := S1x1024x128) hz3]
  unfold outBlock nextAcc nextSum
  simp only [View.readAt_eq_ld, h3.read_unread, h4.read_unread, h5.read_unread, h7.read_unread, h8.read_unread, h9.read_unread,
    View.ld_unit_zero (S := S1x1024x128) hz3, View.ld_unit_zero (S := S1x1024x1) hz3,
    View.readCov_unit_zero (S := S1x1024x1) _ hz3, View.readCov_unit_zero (S := S1x1024x128) _ hz3]

end Cert.KernelIdeal.Attn

end
-- ==== Proof.Consts.lean ====
/-
  The float patterns the two programs carry, as extended reals: minus infinity, zero, one, the finite floor of
  the running maximum, the reference's scale, and the kernel's named reciprocal of it.
-/
import proofs.«406588_j47674136985727_3_alg».proof.KernelIdeal
import Idealize.ShloMosaic.PureOps.Ideal

noncomputable section

namespace Cert.KernelIdeal.Attn

open Idealize.ShloMosaic

/-- The finite floor the running maximum is reset to. -/
abbrev NEG : EReal := Ideal.ofBits .f32 0xFF333332#32
/-- Minus infinity's pattern. -/
abbrev BOT : EReal := Ideal.ofBits .f32 0xFF800000#32
/-- Zero's pattern. -/
abbrev ZERO : EReal := Ideal.ofBits .f32 0x00000000#32
/-- One's pattern. -/
abbrev ONE : EReal := Ideal.ofBits .f32 0x3F800000#32
/-- The reference's scale. -/
abbrev SCALE : EReal := Ideal.ofBits .f32 0x413504F3#32
/-- The kernel's named reciprocal of the scale. -/
abbrev INV : EReal := Named.named (F := Ideal) Cert.KernelIdeal.κ "inv_scale" (φ := .f32) 0x3DB504F3#32

/-- Sign bit set, exponent field 254, fraction 0x333332: the real −(2²³ + 3355442) · 2¹⁰⁴. -/
theorem neg_real : ∃ r : ℝ, NEG = (r : EReal) := by
  refine ⟨-(11744050 * 2 ^ 104 : ℝ), ?_⟩
  simp [Ideal.ofBits, Ideal.ieee, -EReal.coe_mul]

theorem bot_eq : BOT = ⊥ := by
  simp [Ideal.ofBits, Ideal.ieee]

theorem zero_eq : ZERO = 0 := by
  simp [Ideal.ofBits, Ideal.ieee]

theorem one_eq : ONE = 1 := by
  simp [Ideal.ofBits, Ideal.ieee, -EReal.coe_mul]; norm_num

/-- Sign bit clear, exponent field 130, fraction 0x3504F3: (2²³ + 3474675) · 2⁻²⁰ = 11863283 / 1048576. -/
theorem scale_eq : SCALE = ((11863283 / 1048576 : ℝ) : EReal) := by
  simp [Ideal.ofBits, Ideal.ieee, -EReal.coe_mul]; norm_num

/-- The table of named constants gives the reciprocal its rational value. -/
theorem inv_eq : INV = ((1048576 / 11863283 : ℝ) : EReal) := rfl

theorem scale_inv : ∃ Dr : ℝ, Dr ≠ 0 ∧ SCALE = (Dr : EReal) ∧ INV = ((1 / Dr : ℝ) : EReal) := by
  refine ⟨11863283 / 1048576, by norm_num, scale_eq, ?_⟩
  rw [inv_eq]
  norm_num

end Cert.KernelIdeal.Attn

end
-- ==== Proof.LibBatch.lean ====
/-
  Reading rank-three arrays with a leading batch axis at an index, on the extended reals, for any extents.

  Layout: an [a, b] array cast to [a, b, 1] or to [a, 1, b]; an [a, b, 1] or [a, 1, c] array broadcast to
  [a, b, c]. Reductions: the sum and the maximum over the last axis of an [a, b, c] array, the sum over its
  middle axis, the maximum over the last axis of an [a, b] array; the same on the host. Products: with a shared leading batch axis, lhs [B, M, K] against rhs [B, N, K]
  contracted over the last axis of both, and lhs [B, M, K] against rhs [B, K, N] contracted over the last axis of
  the first and the middle axis of the second; each entry of the result is the sum over the contracted
  coordinate of the operands' products, within one batch.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.LibBatch

open Idealize.ShloMosaic Idealize.ShloMosaic.ValueIdx

/-! ## Unit axes and broadcasts -/

section Layout
variable {α : Type}

/-- An [a, b] array cast to [a, b, 1] reads, at (p, q, u), the operand at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An [a, b] array cast to [a, 1, b] reads, at (p, u, q), the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An [a] vector cast to an [a, 1] column reads, at (p, u), the vector at p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, b, 1] array broadcast to [a, b, c] reads, at (p, q, r), the operand at (p, q, 0). -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q (0 : Fin 1)) := by
  refine broadcastTo_apply x h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An [a, 1, c] array broadcast to [a, b, c] reads, at (p, q, r), the operand at (p, 0, r). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An [a, 1] column broadcast to [a, b] reads, at (p, q), the column at (p, 0). -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## Sums and maxima along an axis, in a kernel -/

section Reduce
variable {φ : FTy}

/-- The sum over the last axis of an [a, b, c] array reads, at (p, q), the sum over k of the array at (p, q, k). -/
theorem multiReduction_add_last3 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  rw [Ideal.multiReduction_add_single]
  refine Finset.sum_congr rfl fun k _ => congrArg src (funext fun e => Fin.ext ?_)
  match e with
  | ⟨0, _⟩ => rfl
  | ⟨1, _⟩ => rfl
  | ⟨2, _⟩ => rfl

/-- The sum over the middle axis of an [a, b, c] array reads, at (p, r), the sum over k of the array at (p, k, r). -/
theorem multiReduction_add_mid3 {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (r : Fin c) :
    multiReduction .add [1] ⟨2, ![a, c]⟩ src acc h hφ hacc (ix2 p r) = ∑ k : Fin b, src (ix3 p k r) := by
  rw [Ideal.multiReduction_add_single]
  refine Finset.sum_congr rfl fun k _ => congrArg src (funext fun e => Fin.ext ?_)
  match e with
  | ⟨0, _⟩ => rfl
  | ⟨1, _⟩ => rfl
  | ⟨2, _⟩ => rfl

/-- The sum over axis 1 of an [a, b] array reads, at p, the sum over k of the array at (p, k). -/
theorem multiReduction_add_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun e => Fin.ext ?_)
  match e with
  | ⟨0, _⟩ => rfl
  | ⟨1, _⟩ => rfl

/-- The maximum over the last axis of an [a, b, c] array reads, at (p, q), the maximum from the accumulator's value
    over k of the array at (p, q, k). -/
theorem multiReduction_max_last3 {a b c : ℕ} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.maximumf.neutral φ hφ) (p : Fin a) (q : Fin b) :
    multiReduction .maximumf [2] ⟨2, ![a, b]⟩ src acc h hφ hacc (ix2 p q)
      = (Finset.univ : Finset (Fin c)).fold max (Ideal.ofBits φ acc) (fun k => src (ix3 p q k)) := by
  rw [Ideal.multiReduction_maximumf_single]
  refine congrArg (fun f => Finset.fold max (Ideal.ofBits φ acc) f Finset.univ) (funext fun k => ?_)
  refine congrArg src (funext fun e => Fin.ext ?_)
  match e with
  | ⟨0, _⟩ => rfl
  | ⟨1, _⟩ => rfl
  | ⟨2, _⟩ => rfl

/-- The maximum over axis 1 of an [a, b] array reads, at p, the maximum from the accumulator's value over k of the
    array at (p, k). -/
theorem multiReduction_max_last2 {a b : ℕ} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  rw [Ideal.multiReduction_maximumf_single]
  refine congrArg (fun f => Finset.fold max (Ideal.ofBits φ acc) f Finset.univ) (funext fun k => ?_)
  refine congrArg src (funext fun e => Fin.ext ?_)
  match e with
  | ⟨0, _⟩ => rfl
  | ⟨1, _⟩ => rfl

end Reduce

/-! ## The same on the host -/

section HostReduce
variable {φ : FTy}

/-- The host's maximum over the last axis of an [a, b, c] array reads, at (p, q), the maximum from the initial value
    over k of the array at (p, q, k). -/
theorem hostReduceMax_last3 {a b c : ℕ} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce FloatOps.maximumf x init h' hu (ix2 p q)
      = (Finset.univ : Finset (Fin c)).fold max (init (Shape.Idx.first hu)) (fun k => x (ix3 p q k)) := by
  rw [Host.reduce_eq_fold_single FloatOps.maximumf x init h' h hu]
  show (Finset.univ : Finset (Fin c)).fold max (init (Shape.Idx.first hu)) (x ∘ h.lift (ix2 p q)) = _
  refine congrArg (fun f => Finset.fold max (init (Shape.Idx.first hu)) f Finset.univ) (funext fun k => ?_)
  refine congrArg x (funext fun e => Fin.ext ?_)
  match e with
  | ⟨0, _⟩ => rfl
  | ⟨1, _⟩ => rfl
  | ⟨2, _⟩ => rfl

/-- The host's maximum over axis 1 of an [a, b] array reads, at p, the maximum from the initial value over k of the
    array at (p, k). -/
theorem hostReduceMax_last2 {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  show (Finset.univ : Finset (Fin b)).fold max (init (Shape.Idx.first hu)) (x ∘ h.lift (ix1 p)) = _
  refine congrArg (fun f => Finset.fold max (init (Shape.Idx.first hu)) f Finset.univ) (funext fun k => ?_)
  refine congrArg x (funext fun e => Fin.ext ?_)
  match e with
  | ⟨0, _⟩ => rfl
  | ⟨1, _⟩ => rfl

end HostReduce

/-! ## Products with a shared leading batch axis -/

section BatchNT
variable {B M K N : ℕ} (d : DotDims ⟨3, ![B, M, K]⟩ ⟨3, ![B, N, K]⟩ ⟨3, ![B, M, N]⟩)

/-- The contracted shape has one axis. -/
theorem nt_contr_rank (hlc : d.lhsContracting = [2]) : d.contr.rank = 1 := by
  rw [d.rank_contr, hlc]; rfl

/-- The contracted shape's one axis has the operands' last extent. -/
theorem nt_contr_size (hlc : d.lhsContracting = [2]) :
    d.contr.size ⟨0, by rw [nt_contr_rank d hlc]; exact Nat.one_pos⟩ = K := by
  have h1 : (0 : ℕ) < d.lhsContracting.length := by rw [hlc]; exact Nat.one_pos
  rw [d.size_contr 0 h1, List.getElem_of_eq hlc h1]
  rfl

/-- Left operand, axis 0 (batch): the output's batch coordinate. -/
theorem nt_lhsIdx_axis0 (hlb : d.lhsBatch = [0])
    (j : (⟨3, ![B, M, N]⟩ : Shape).Idx) (k : d.contr.Idx) : (d.lhsIdx j k 0).val = (j 0).val := by
  have hb : (0 : Fin (⟨3, ![B, M, K]⟩ : Shape).rank) ∈ d.lhsBatch := by rw [hlb]; exact List.mem_singleton.mpr rfl
  unfold DotDims.lhsIdx
  rw [dif_pos hb]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hlb])

/-- Left operand, axis 1 (kept): the output's row coordinate. -/
theorem nt_lhsIdx_axis1 (hln : d.lhsNonContracting = [1]) (hlb : d.lhsBatch = [0])
    (j : (⟨3, ![B, M, N]⟩ : Shape).Idx) (k : d.contr.Idx) : (d.lhsIdx j k 1).val = (j 1).val := by
  have hb : (1 : Fin (⟨3, ![B, M, K]⟩ : Shape).rank) ∉ d.lhsBatch := by
    rw [hlb]; intro h; exact Nat.one_ne_zero (congrArg Fin.val (List.mem_singleton.mp h))
  have hn : (1 : Fin (⟨3, ![B, M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hlb, hln])

/-- Left operand, axis 2 (contracted): the contraction position's one coordinate. -/
theorem nt_lhsIdx_axis2 (hlc : d.lhsContracting = [2])
    (j : (⟨3, ![B, M, N]⟩ : Shape).Idx) (k : d.contr.Idx) :
    (d.lhsIdx j k 2).val = (k ⟨0, by rw [nt_contr_rank d hlc]; exact Nat.one_pos⟩).val :=
  d.lhsIdx_val_of_single hlc j k

/-- Right operand, axis 0 (batch): the output's batch coordinate. -/
theorem nt_rhsIdx_axis0 (hrb : d.rhsBatch = [0])
    (j : (⟨3, ![B, M, N]⟩ : Shape).Idx) (k : d.contr.Idx) : (d.rhsIdx j k 0).val = (j 0).val := by
  have hb : (0 : Fin (⟨3, ![B, N, K]⟩ : Shape).rank) ∈ d.rhsBatch := by rw [hrb]; exact List.mem_singleton.mpr rfl
  unfold DotDims.rhsIdx
  rw [dif_pos hb]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hrb])

/-- Right operand, axis 1 (kept): the output's column coordinate. -/
theorem nt_rhsIdx_axis1 (hln : d.lhsNonContracting = [1]) (hrn : d.rhsNonContracting = [1]) (hlb : d.lhsBatch = [0])
    (hrb : d.rhsBatch = [0]) (j : (⟨3, ![B, M, N]⟩ : Shape).Idx) (k : d.contr.Idx) : (d.rhsIdx j k 1).val = (j 2).val := by
  have hb : (1 : Fin (⟨3, ![B, N, K]⟩ : Shape).rank) ∉ d.rhsBatch := by
    rw [hrb]; intro h; exact Nat.one_ne_zero (congrArg Fin.val (List.mem_singleton.mp h))
  have hn : (1 : Fin (⟨3, ![B, N, K]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hlb, hln, hrn])

/-- Right operand, axis 2 (contracted): the contraction position's one coordinate. -/
theorem nt_rhsIdx_axis2 (hlc : d.lhsContracting = [2]) (hrc : d.rhsContracting = [2])
    (j : (⟨3, ![B, M, N]⟩ : Shape).Idx) (k : d.contr.Idx) :
    (d.rhsIdx j k 2).val = (k ⟨0, by rw [nt_contr_rank d hlc]; exact Nat.one_pos⟩).val :=
  d.rhsIdx_val_of_single hrc j k

/-- lhs [B, M, K] against rhs [B, N, K], contracted over the last axis of both within each batch: the entry at
    (p, i, j) is the sum over k of lhs (p, i, k) * rhs (p, j, k). -/
theorem bmm_nt_zero_ix3 {φ₁ φ₂ : FTy} (hlc : d.lhsContracting = [2]) (hrc : d.rhsContracting = [2])
    (hln : d.lhsNonContracting = [1]) (hrn : d.rhsNonContracting = [1]) (hlb : d.lhsBatch = [0]) (hrb : d.rhsBatch = [0])
    (prec : Option ContractPrecision) (lhs : FVec Ideal ⟨3, ![B, M, K]⟩ φ₁) (rhs : FVec Ideal ⟨3, ![B, N, K]⟩ φ₂)
    (p : Fin B) (i : Fin M) (j : Fin N) :
    FloatOps.matmul d prec lhs rhs (constant ⟨3, ![B, M, N]⟩ .f32 0x00000000#32) (ix3 p i j)
      = ∑ k : Fin K, lhs (ix3 p i k) * rhs (ix3 p j k) := by
  rw [Ideal.matmul_constant_zero_apply]
  rw [← Equiv.sum_comp (contrEquiv1 d K (nt_contr_rank d hlc) (nt_contr_size d hlc)).symm]
  refine Finset.sum_congr rfl fun k _ => ?_
  have hk := contrEquiv1_symm_val d K (nt_contr_rank d hlc) (nt_contr_size d hlc) k
  have hl : d.lhsIdx (ix3 p i j) ((contrEquiv1 d K (nt_contr_rank d hlc) (nt_contr_size d hlc)).symm k) = ix3 p i k := by
    funext a
    refine Fin.ext ?_
    match a with
    | ⟨0, _⟩ => exact nt_lhsIdx_axis0 d hlb _ _
    | ⟨1, _⟩ => exact nt_lhsIdx_axis1 d hln hlb _ _
    | ⟨2, _⟩ => exact (nt_lhsIdx_axis2 d hlc _ _).trans hk
  have hr : d.rhsIdx (ix3 p i j) ((contrEquiv1 d K (nt_contr_rank d hlc) (nt_contr_size d hlc)).symm k) = ix3 p j k := by
    funext a
    refine Fin.ext ?_
    match a with
    | ⟨0, _⟩ => exact nt_rhsIdx_axis0 d hrb _ _
    | ⟨1, _⟩ => exact nt_rhsIdx_axis1 d hln hrn hlb hrb _ _
    | ⟨2, _⟩ => exact (nt_rhsIdx_axis2 d hlc hrc _ _).trans hk
  rw [hl, hr]

end BatchNT

section BatchNN
variable {B M K N : ℕ} (d : DotDims ⟨3, ![B, M, K]⟩ ⟨3, ![B, K, N]⟩ ⟨3, ![B, M, N]⟩)

/-- The contracted shape has one axis. -/
theorem nn_contr_rank (hlc : d.lhsContracting = [2]) : d.contr.rank = 1 := by
  rw [d.rank_contr, hlc]; rfl

/-- The contracted shape's one axis has the left operand's last extent. -/
theorem nn_contr_size (hlc : d.lhsContracting = [2]) :
    d.contr.size ⟨0, by rw [nn_contr_rank d hlc]; exact Nat.one_pos⟩ = K := by
  have h1 : (0 : ℕ) < d.lhsContracting.length := by rw [hlc]; exact Nat.one_pos
  rw [d.size_contr 0 h1, List.getElem_of_eq hlc h1]
  rfl

/-- Left operand, axis 0 (batch): the output's batch coordinate. -/
theorem nn_lhsIdx_axis0 (hlb : d.lhsBatch = [0])
    (j : (⟨3, ![B, M, N]⟩ : Shape).Idx) (k : d.contr.Idx) : (d.lhsIdx j k 0).val = (j 0).val := by
  have hb : (0 : Fin (⟨3, ![B, M, K]⟩ : Shape).rank) ∈ d.lhsBatch := by rw [hlb]; exact List.mem_singleton.mpr rfl
  unfold DotDims.lhsIdx
  rw [dif_pos hb]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hlb])

/-- Left operand, axis 1 (kept): the output's row coordinate. -/
theorem nn_lhsIdx_axis1 (hln : d.lhsNonContracting = [1]) (hlb : d.lhsBatch = [0])
    (j : (⟨3, ![B, M, N]⟩ : Shape).Idx) (k : d.contr.Idx) : (d.lhsIdx j k 1).val = (j 1).val := by
  have hb : (1 : Fin (⟨3, ![B, M, K]⟩ : Shape).rank) ∉ d.lhsBatch := by
    rw [hlb]; intro h; exact Nat.one_ne_zero (congrArg Fin.val (List.mem_singleton.mp h))
  have hn : (1 : Fin (⟨3, ![B, M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hlb, hln])

/-- Left operand, axis 2 (contracted): the contraction position's one coordinate. -/
theorem nn_lhsIdx_axis2 (hlc : d.lhsContracting = [2])
    (j : (⟨3, ![B, M, N]⟩ : Shape).Idx) (k : d.contr.Idx) :
    (d.lhsIdx j k 2).val = (k ⟨0, by rw [nn_contr_rank d hlc]; exact Nat.one_pos⟩).val :=
  d.lhsIdx_val_of_single hlc j k

/-- Right operand, axis 0 (batch): the output's batch coordinate. -/
theorem nn_rhsIdx_axis0 (hrb : d.rhsBatch = [0])
    (j : (⟨3, ![B, M, N]⟩ : Shape).Idx) (k : d.contr.Idx) : (d.rhsIdx j k 0).val = (j 0).val := by
  have hb : (0 : Fin (⟨3, ![B, K, N]⟩ : Shape).rank) ∈ d.rhsBatch := by rw [hrb]; exact List.mem_singleton.mpr rfl
  unfold DotDims.rhsIdx
  rw [dif_pos hb]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hrb])

/-- Right operand, axis 1 (contracted): the contraction position's one coordinate. -/
theorem nn_rhsIdx_axis1 (hlc : d.lhsContracting = [2]) (hrc : d.rhsContracting = [1])
    (j : (⟨3, ![B, M, N]⟩ : Shape).Idx) (k : d.contr.Idx) :
    (d.rhsIdx j k 1).val = (k ⟨0, by rw [nn_contr_rank d hlc]; exact Nat.one_pos⟩).val :=
  d.rhsIdx_val_of_single hrc j k

/-- Right operand, axis 2 (kept): the output's column coordinate. -/
theorem nn_rhsIdx_axis2 (hln : d.lhsNonContracting = [1]) (hrn : d.rhsNonContracting = [2]) (hlb : d.lhsBatch = [0])
    (hrb : d.rhsBatch = [0]) (j : (⟨3, ![B, M, N]⟩ : Shape).Idx) (k : d.contr.Idx) : (d.rhsIdx j k 2).val = (j 2).val := by
  have hb : (2 : Fin (⟨3, ![B, K, N]⟩ : Shape).rank) ∉ d.rhsBatch := by
    rw [hrb]; intro h; exact Nat.succ_ne_zero 1 (congrArg Fin.val (List.mem_singleton.mp h))
  have hn : (2 : Fin (⟨3, ![B, K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hlb, hln, hrn])

/-- lhs [B, M, K] against rhs [B, K, N], contracted over the last axis of the first and the middle axis of the
    second within each batch: the entry at (p, i, j) is the sum over k of lhs (p, i, k) * rhs (p, k, j). -/
theorem bmm_nn_zero_ix3 {φ₁ φ₂ : FTy} (hlc : d.lhsContracting = [2]) (hrc : d.rhsContracting = [1])
    (hln : d.lhsNonContracting = [1]) (hrn : d.rhsNonContracting = [2]) (hlb : d.lhsBatch = [0]) (hrb : d.rhsBatch = [0])
    (prec : Option ContractPrecision) (lhs : FVec Ideal ⟨3, ![B, M, K]⟩ φ₁) (rhs : FVec Ideal ⟨3, ![B, K, N]⟩ φ₂)
    (p : Fin B) (i : Fin M) (j : Fin N) :
    FloatOps.matmul d prec lhs rhs (constant ⟨3, ![B, M, N]⟩ .f32 0x00000000#32) (ix3 p i j)
      = ∑ k : Fin K, lhs (ix3 p i k) * rhs (ix3 p k j) := by
  rw [Ideal.matmul_constant_zero_apply]
  rw [← Equiv.sum_comp (contrEquiv1 d K (nn_contr_rank d hlc) (nn_contr_size d hlc)).symm]
  refine Finset.sum_congr rfl fun k _ => ?_
  have hk := contrEquiv1_symm_val d K (nn_contr_rank d hlc) (nn_contr_size d hlc) k
  have hl : d.lhsIdx (ix3 p i j) ((contrEquiv1 d K (nn_contr_rank d hlc) (nn_contr_size d hlc)).symm k) = ix3 p i k := by
    funext a
    refine Fin.ext ?_
    match a with
    | ⟨0, _⟩ => exact nn_lhsIdx_axis0 d hlb _ _
    | ⟨1, _⟩ => exact nn_lhsIdx_axis1 d hln hlb _ _
    | ⟨2, _⟩ => exact (nn_lhsIdx_axis2 d hlc _ _).trans hk
  have hr : d.rhsIdx (ix3 p i j) ((contrEquiv1 d K (nn_contr_rank d hlc) (nn_contr_size d hlc)).symm k) = ix3 p k j := by
    funext a
    refine Fin.ext ?_
    match a with
    | ⟨0, _⟩ => exact nn_rhsIdx_axis0 d hrb _ _
    | ⟨1, _⟩ => exact (nn_rhsIdx_axis1 d hlc hrc _ _).trans hk
    | ⟨2, _⟩ => exact nn_rhsIdx_axis2 d hln hrn hlb hrb _ _
  rw [hl, hr]

end BatchNN

end Cert.LibBatch

end
-- ==== Proof.OnlineSoftmax.lean ====
/-
  The online softmax over two key blocks, on the extended reals, against the row softmax taken in one piece.

  A row of attention weighs the value rows by exp (x j - s) / ∑ exp (x j' - s) for ANY real shift s: the shift
  multiplies numerator and denominator by the same positive number. The one-piece form takes s to be the row
  maximum. The two-block form takes a first shift m1 over the first block (never below a finite floor), rescales
  what it has by exp (m1 - m2) when the second block raises the shift to m2, and divides once at the end. With
  every score and value a real number the two are the same real.
-/
import Idealize.ShloMosaic.PureOps.Ideal

noncomputable section

open scoped BigOperators

namespace Cert.OnlineSoftmax

open Idealize.ShloMosaic

/-- A score as the kernel forms it: the query row scaled entry by entry, then contracted with a key row. -/
def kScore {d : ℕ} (c : EReal) (q k : Fin d → EReal) : EReal := ∑ e, (q e * c) * k e

/-- A score as the reference forms it: the contraction, then the quotient by the scale. -/
def rScore {d : ℕ} (D : EReal) (q k : Fin d → EReal) : EReal := Ideal.div (∑ e, q e * k e) D

/-- The running maximum after a block: the maximum of the running value and the block's scores (folded from `bot`). -/
def blkMax {n : ℕ} (bot m : EReal) (s : Fin n → EReal) : EReal := max m (Finset.univ.fold max bot s)

/-- A block's sum of exponentials relative to a shift. -/
def blkSum {n : ℕ} (m : EReal) (s : Fin n → EReal) : EReal := ∑ j, Ideal.exp (s j - m)

/-- A block's sum of exponentials relative to a shift, each weighing its value. -/
def blkAcc {n : ℕ} (m : EReal) (s v : Fin n → EReal) : EReal := ∑ j, Ideal.exp (s j - m) * v j

/-- The two-block online softmax of one row: from the floor `neg`, a zero sum and a zero accumulator, through the
    first block (scores `sA`, values `vA`) and the second (`sB`, `vB`), then the accumulator times the reciprocal
    of the sum. -/
def flashRow {n : ℕ} (neg bot zero one : EReal) (sA sB vA vB : Fin n → EReal) : EReal :=
  (Ideal.exp (blkMax bot neg sA - blkMax bot (blkMax bot neg sA) sB)
      * (Ideal.exp (neg - blkMax bot neg sA) * zero + blkAcc (blkMax bot neg sA) sA vA)
    + blkAcc (blkMax bot (blkMax bot neg sA) sB) sB vB)
  * Ideal.div one
      (Ideal.exp (blkMax bot neg sA - blkMax bot (blkMax bot neg sA) sB)
          * (Ideal.exp (neg - blkMax bot neg sA) * zero + blkSum (blkMax bot neg sA) sA)
        + blkSum (blkMax bot (blkMax bot neg sA) sB) sB)

/-- The row softmax taken in one piece, weighing the values: shift by the row maximum (folded from `bot`, then
    once more against `bot`), exponentiate, divide each by the sum (taken from `zero`), weigh and add. -/
def softmaxRow {n : ℕ} (bot zero : EReal) (x v : Fin n → EReal) : EReal :=
  ∑ j, Ideal.div (Ideal.exp (x j - max bot (Finset.univ.fold max bot x)))
        (zero + ∑ j', Ideal.exp (x j' - max bot (Finset.univ.fold max bot x))) * v j

/-- Key `j` of the first block among all the keys. -/
def lo (j : Fin 1024) : Fin 2048 := ⟨j.val, by have := j.isLt; omega⟩
/-- Key `j` of the second block among all the keys. -/
def hi (j : Fin 1024) : Fin 2048 := ⟨1024 + j.val, by have := j.isLt; omega⟩

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum folded from the bottom over real entries never reaches the top. -/
theorem fold_lt_top {ι : Type*} (s : Finset ι) (f : ι → ℝ) :
    s.fold max ⊥ (fun j => (f j : EReal)) < ⊤ := by
  rw [Finset.fold_max_lt]
  exact ⟨bot_lt_top, fun j _ => EReal.coe_lt_top _⟩

/-- A block's running maximum from a real running value over real scores is a real. -/
theorem blkMax_coe {n : ℕ} (m : ℝ) (s : Fin n → ℝ) :
    ∃ r : ℝ, blkMax ⊥ (m : EReal) (fun j => (s j : EReal)) = (r : EReal) := by
  refine ⟨(blkMax ⊥ (m : EReal) (fun j => (s j : EReal))).toReal, (EReal.coe_toReal ?_ ?_).symm⟩
  · exact (max_lt (EReal.coe_lt_top m) (fold_lt_top _ _)).ne
  · exact (lt_of_lt_of_le (EReal.bot_lt_coe m) (le_max_left _ _)).ne'

/-- The maximum of a nonempty row of real scores is a real. -/
theorem rowMax_coe (x : Fin 2048 → ℝ) :
    ∃ r : ℝ, max ⊥ (Finset.univ.fold max ⊥ (fun j => (x j : EReal))) = (r : EReal) := by
  refine ⟨(max ⊥ (Finset.univ.fold max ⊥ (fun j => (x j : EReal)))).toReal, (EReal.coe_toReal ?_ ?_).symm⟩
  · exact (max_lt bot_lt_top (fold_lt_top _ _)).ne
  · have h : ((x 0 : ℝ) : EReal) ≤ Finset.univ.fold max ⊥ (fun j => (x j : EReal)) :=
      (Finset.le_fold_max _).mpr (Or.inr ⟨0, Finset.mem_univ _, le_rfl⟩)
    exact (lt_of_lt_of_le (EReal.bot_lt_coe (x 0)) (h.trans (le_max_right _ _))).ne'

/-- A block's sum of exponentials of real scores relative to a real shift is the real sum. -/
theorem blkSum_coe {n : ℕ} (m : ℝ) (s : Fin n → ℝ) :
    blkSum (m : EReal) (fun j => (s j : EReal)) = ((∑ j, Real.exp (s j - m) : ℝ) : EReal) := by
  unfold blkSum
  rw [coe_sum]
  refine Finset.sum_congr rfl fun j _ => ?_
  rw [← EReal.coe_sub, Ideal.exp_coe]

/-- A block's weighted sum of exponentials of real scores relative to a real shift is the real sum. -/
theorem blkAcc_coe {n : ℕ} (m : ℝ) (s v : Fin n → ℝ) :
    blkAcc (m : EReal) (fun j => (s j : EReal)) (fun j => (v j : EReal))
      = ((∑ j, Real.exp (s j - m) * v j : ℝ) : EReal) := by
  unfold blkAcc
  rw [coe_sum]
  refine Finset.sum_congr rfl fun j _ => ?_
  rw [← EReal.coe_sub, Ideal.exp_coe, ← EReal.coe_mul]

/-- The quotient of two reals, the divisor not zero, is the real product with the reciprocal. -/
theorem div_coe_coe (a b : ℝ) (hb : b ≠ 0) :
    Ideal.div (a : EReal) (b : EReal) = ((a * (1 / b) : ℝ) : EReal) := by
  rw [Ideal.div_coe hb, ← EReal.coe_mul]

/-- A shift comes out of a weighted sum of exponentials as one factor. -/
theorem sum_exp_shift {ι : Type*} (s : Finset ι) (f g : ι → ℝ) (a : ℝ) :
    ∑ j ∈ s, Real.exp (f j - a) * g j = Real.exp (-a) * ∑ j ∈ s, Real.exp (f j) * g j := by
  rw [Finset.mul_sum]
  refine Finset.sum_congr rfl fun j _ => ?_
  rw [sub_eq_add_neg, Real.exp_add]; ring

/-- A shift comes out of a sum of exponentials as one factor. -/
theorem sum_exp_shift' {ι : Type*} (s : Finset ι) (f : ι → ℝ) (a : ℝ) :
    ∑ j ∈ s, Real.exp (f j - a) = Real.exp (-a) * ∑ j ∈ s, Real.exp (f j) := by
  rw [Finset.mul_sum]
  refine Finset.sum_congr rfl fun j _ => ?_
  rw [sub_eq_add_neg, Real.exp_add]; ring

/-- A sum over all the keys is the sum over the first block plus the sum over the second. -/
theorem sum_lo_hi (f : Fin 2048 → ℝ) : ∑ j, f j = ∑ j, f (lo j) + ∑ j, f (hi j) :=
  Fin.sum_univ_add (a := 1024) (b := 1024) f

/-- The identity of the two forms once every shift is written as a positive factor: the rescaling factor
    `w` times the first shift's factor `z` is the second shift's factor `t`, which cancels as the
    one-piece form's factor `u` does. -/
theorem real_identity (c w z t u A0 B0 SA0 SB0 : ℝ) (hwz : w * z = t) (ht : 0 < t) (hu : 0 < u)
    (hS : 0 < SA0 + SB0) :
    (w * (c * 0 + z * A0) + t * B0) * (1 / (w * (c * 0 + z * SA0) + t * SB0))
      = u * (A0 + B0) * (1 / (0 + u * (SA0 + SB0))) := by
  have h1 : w * (c * 0 + z * A0) = t * A0 := by rw [mul_zero, zero_add, ← mul_assoc, hwz]
  have h2 : w * (c * 0 + z * SA0) = t * SA0 := by rw [mul_zero, zero_add, ← mul_assoc, hwz]
  rw [h1, h2, zero_add, ← mul_add, ← mul_add]
  have hS' := hS.ne'
  have ht' := ht.ne'
  have hu' := hu.ne'
  field_simp

/-- The two forms as real numbers, for any real shifts `m1`, `m2` of the two-block form and `M` of the one-piece
    form. -/
theorem real_core (negr m1 m2 M : ℝ) (x v : Fin 2048 → ℝ) :
    (Real.exp (m1 - m2) * (Real.exp (negr - m1) * 0 + ∑ j, Real.exp (x (lo j) - m1) * v (lo j))
        + ∑ j, Real.exp (x (hi j) - m2) * v (hi j))
      * (1 / (Real.exp (m1 - m2) * (Real.exp (negr - m1) * 0 + ∑ j, Real.exp (x (lo j) - m1))
          + ∑ j, Real.exp (x (hi j) - m2)))
    = ∑ j, Real.exp (x j - M) * (1 / (0 + ∑ j', Real.exp (x j' - M))) * v j := by
  have eR : ∑ j, Real.exp (x j - M) * (1 / (0 + ∑ j', Real.exp (x j' - M))) * v j
      = (∑ j, Real.exp (x j - M) * v j) * (1 / (0 + ∑ j', Real.exp (x j' - M))) := by
    rw [Finset.sum_mul]
    refine Finset.sum_congr rfl fun j _ => ?_
    ring
  rw [eR, sum_exp_shift _ (fun j => x (lo j)) (fun j => v (lo j)) m1,
    sum_exp_shift _ (fun j => x (hi j)) (fun j => v (hi j)) m2,
    sum_exp_shift' _ (fun j => x (lo j)) m1, sum_exp_shift' _ (fun j => x (hi j)) m2,
    sum_exp_shift _ x v M, sum_exp_shift' _ x M,
    sum_lo_hi (fun j => Real.exp (x j) * v j), sum_lo_hi (fun j => Real.exp (x j))]
  refine real_identity _ _ _ _ _ _ _ _ _ ?_ (Real.exp_pos _) (Real.exp_pos _) ?_
  · rw [← Real.exp_add]
    congr 1
    ring
  · have hA : 0 < ∑ j : Fin 1024, Real.exp (x (lo j)) :=
      Finset.sum_pos (fun j _ => Real.exp_pos _) Finset.univ_nonempty
    have hB : 0 < ∑ j : Fin 1024, Real.exp (x (hi j)) :=
      Finset.sum_pos (fun j _ => Real.exp_pos _) Finset.univ_nonempty
    exact add_pos hA hB

/-- The two forms agree on real scores and values. -/
theorem core (negr : ℝ) (x v : Fin 2048 → ℝ) :
    flashRow (negr : EReal) ⊥ 0 1 (fun j => (x (lo j) : EReal)) (fun j => (x (hi j) : EReal))
        (fun j => (v (lo j) : EReal)) (fun j => (v (hi j) : EReal))
      = softmaxRow ⊥ 0 (fun j => (x j : EReal)) (fun j => (v j : EReal)) := by
  obtain ⟨m1, hm1⟩ := blkMax_coe negr (fun j => x (lo j))
  obtain ⟨m2, hm2⟩ := blkMax_coe m1 (fun j => x (hi j))
  obtain ⟨M, hM⟩ := rowMax_coe x
  have e1 : Ideal.exp ((m1 : EReal) - (m2 : EReal)) = ((Real.exp (m1 - m2) : ℝ) : EReal) := by
    rw [← EReal.coe_sub, Ideal.exp_coe]
  have e2 : Ideal.exp ((negr : EReal) - (m1 : EReal)) = ((Real.exp (negr - m1) : ℝ) : EReal) := by
    rw [← EReal.coe_sub, Ideal.exp_coe]
  have e3 : ∀ j, Ideal.exp ((x j : EReal) - (M : EReal)) = ((Real.exp (x j - M) : ℝ) : EReal) := by
    intro j
    rw [← EReal.coe_sub, Ideal.exp_coe]
  unfold flashRow softmaxRow
  rw [hm1, hm2, hM, e1, e2, blkAcc_coe, blkAcc_coe, blkSum_coe, blkSum_coe]
  simp only [e3]
  have hL : Real.exp (m1 - m2) * (Real.exp (negr - m1) * 0 + ∑ j, Real.exp (x (lo j) - m1))
      + ∑ j, Real.exp (x (hi j) - m2) ≠ 0 := by
    have hA : 0 < ∑ j : Fin 1024, Real.exp (x (lo j) - m1) :=
      Finset.sum_pos (fun j _ => Real.exp_pos _) Finset.univ_nonempty
    have hB : 0 < ∑ j : Fin 1024, Real.exp (x (hi j) - m2) :=
      Finset.sum_pos (fun j _ => Real.exp_pos _) Finset.univ_nonempty
    rw [mul_zero, zero_add]
    exact (add_pos (mul_pos (Real.exp_pos _) hA) hB).ne'
  have hden : (0 + ∑ j', Real.exp (x j' - M)) ≠ 0 := by
    have hS : 0 < ∑ j' : Fin 2048, Real.exp (x j' - M) :=
      Finset.sum_pos (fun j _ => Real.exp_pos _) Finset.univ_nonempty
    rw [zero_add]
    exact hS.ne'
  rw [← coe_sum, ← EReal.coe_zero, ← EReal.coe_one]
  simp only [← EReal.coe_mul, ← EReal.coe_add]
  rw [div_coe_coe _ _ hL]
  simp only [div_coe_coe _ _ hden, ← EReal.coe_mul]
  rw [← coe_sum, EReal.coe_eq_coe_iff, one_mul]
  exact real_core negr m1 m2 M x v

/-- With a real floor, real scale and real queries, keys and values, the two-block online softmax over the
    kernel's scores (query scaled by the reciprocal of the scale) is the one-piece row softmax over the
    reference's scores (contraction divided by the scale). -/
theorem flashRow_eq_softmaxRow {d : ℕ} {neg bot zero one C D : EReal}
    (hneg : ∃ r : ℝ, neg = (r : EReal)) (hbot : bot = ⊥) (hzero : zero = 0) (hone : one = 1)
    (hCD : ∃ Dr : ℝ, Dr ≠ 0 ∧ D = (Dr : EReal) ∧ C = ((1 / Dr : ℝ) : EReal))
    (q : Fin d → EReal) (k : Fin 2048 → Fin d → EReal) (v : Fin 2048 → EReal)
    (hq : ∀ e, ∃ r : ℝ, q e = (r : EReal)) (hk : ∀ j e, ∃ r : ℝ, k j e = (r : EReal))
    (hv : ∀ j, ∃ r : ℝ, v j = (r : EReal)) :
    flashRow neg bot zero one (fun j => kScore C q (k (lo j))) (fun j => kScore C q (k (hi j)))
        (fun j => v (lo j)) (fun j => v (hi j))
      = softmaxRow bot zero (fun j => rScore D q (k j)) v := by
  obtain ⟨negr, rfl⟩ := hneg
  subst hbot hzero hone
  obtain ⟨Dr, hDr, rfl, rfl⟩ := hCD
  choose qr hqr using hq
  choose kr hkr using hk
  choose vr hvr using hv
  have hks : ∀ j, kScore ((1 / Dr : ℝ) : EReal) q (k j)
      = (((∑ e, qr e * kr j e) * (1 / Dr) : ℝ) : EReal) := by
    intro j
    unfold kScore
    rw [Finset.sum_mul, coe_sum]
    refine Finset.sum_congr rfl fun e _ => ?_
    rw [hqr e, hkr j e, ← EReal.coe_mul, ← EReal.coe_mul]
    congr 1
    ring
  have hrs : ∀ j, rScore (Dr : EReal) q (k j)
      = (((∑ e, qr e * kr j e) * (1 / Dr) : ℝ) : EReal) := by
    intro j
    unfold rScore
    rw [Ideal.div_coe hDr, EReal.coe_mul, coe_sum]
    congr 1
    refine Finset.sum_congr rfl fun e _ => ?_
    rw [hqr e, hkr j e, EReal.coe_mul]
  obtain rfl : v = fun j => (vr j : EReal) := funext hvr
  simp only [hks, hrs]
  exact core negr (fun j => (∑ e, qr e * kr j e) * (1 / Dr)) vr

end Cert.OnlineSoftmax

end
-- ==== Proof.KernelRows.lean ====
/-
  One entry of the output block a second-block point stores, as the two-block online softmax of its row.
-/
import proofs.«406588_j47674136985727_3_alg».proof.Proof.Payload
import proofs.«406588_j47674136985727_3_alg».proof.Proof.Consts
import proofs.«406588_j47674136985727_3_alg».proof.Proof.LibBatch
import proofs.«406588_j47674136985727_3_alg».proof.Proof.OnlineSoftmax

noncomputable section

namespace Cert.KernelIdeal.Attn

open Idealize.ShloMosaic Idealize.ShloMosaic.ValueIdx Cert.KernelIdeal Cert.KernelIdeal.Gen Cert.OnlineSoftmax

/-- The scores of one block: entry (0, r, j) is the scaled query row r contracted with key row j. -/
theorem pay7_apply (q k : Vec Ideal S1x1024x128 .f32) (r j : Fin 1024) :
    k0_pay7 (F := Ideal) q k (ix3 (0 : Fin 1) r j)
      = kScore INV (fun e => q (ix3 (0 : Fin 1) r e)) (fun e => k (ix3 (0 : Fin 1) j e)) := by
  unfold k0_pay7
  refine (Cert.LibBatch.bmm_nt_zero_ix3 dot_S1x1024x128_S1x1024x128_S1x1024x1024_2_2_1_1_0_0 rfl rfl rfl rfl rfl rfl none _ _ (0 : Fin 1) r j).trans ?_
  rw [shapeCast_self, shapeCast_self]
  rfl

/-- The running maximum after one block: entry (0, r, u) is the maximum of the running value and the block's scores. -/
theorem pay8_apply (q k : Vec Ideal S1x1024x128 .f32) (m : Vec Ideal S1x1024x1 .f32) (r : Fin 1024) (u : Fin 1) :
    k0_pay8 (F := Ideal) q k m (ix3 (0 : Fin 1) r u)
      = blkMax BOT (m (ix3 (0 : Fin 1) r (0 : Fin 1)))
          (fun j => kScore INV (fun e => q (ix3 (0 : Fin 1) r e)) (fun e => k (ix3 (0 : Fin 1) j e))) := by
  unfold k0_pay8
  obtain rfl : u = 0 := Subsingleton.elim _ _
  refine (maximumf_apply _ _ _).trans ?_
  unfold blkMax
  refine congrArg (max (m (ix3 (0 : Fin 1) r (0 : Fin 1)))) ?_
  refine (Cert.LibBatch.shapeCast_ab_ab1_apply _ _ (0 : Fin 1) r (0 : Fin 1)).trans ?_
  refine (Cert.LibBatch.multiReduction_max_last3 _ _ _ _ _ (0 : Fin 1) r).trans ?_
  exact congrArg (fun f => Finset.fold max BOT f Finset.univ) (funext fun j => pay7_apply q k r j)

/-- The rescaling factor of one block: entry (0, r, u) is the exponential of the running maximum less the new one. -/
theorem pay9_apply (q k : Vec Ideal S1x1024x128 .f32) (m : Vec Ideal S1x1024x1 .f32) (r : Fin 1024) (u : Fin 1) :
    k0_pay9 (F := Ideal) q k m (ix3 (0 : Fin 1) r u)
      = Ideal.exp (m (ix3 (0 : Fin 1) r (0 : Fin 1))
          - blkMax BOT (m (ix3 (0 : Fin 1) r (0 : Fin 1)))
              (fun j => kScore INV (fun e => q (ix3 (0 : Fin 1) r e)) (fun e => k (ix3 (0 : Fin 1) j e)))) := by
  unfold k0_pay9
  obtain rfl : u = 0 := Subsingleton.elim _ _
  show Ideal.exp (m (ix3 (0 : Fin 1) r (0 : Fin 1)) - k0_pay8 (F := Ideal) q k m (ix3 (0 : Fin 1) r (0 : Fin 1))) = _
  rw [pay8_apply]

/-- The exponentials of one block: entry (0, r, j) is the exponential of score j less the new maximum. -/
theorem pay10_apply (q k : Vec Ideal S1x1024x128 .f32) (m : Vec Ideal S1x1024x1 .f32) (r j : Fin 1024) :
    k0_pay10 (F := Ideal) q k m (ix3 (0 : Fin 1) r j)
      = Ideal.exp (kScore INV (fun e => q (ix3 (0 : Fin 1) r e)) (fun e => k (ix3 (0 : Fin 1) j e))
          - blkMax BOT (m (ix3 (0 : Fin 1) r (0 : Fin 1)))
              (fun j => kScore INV (fun e => q (ix3 (0 : Fin 1) r e)) (fun e => k (ix3 (0 : Fin 1) j e)))) := by
  unfold k0_pay10
  show Ideal.exp (k0_pay7 (F := Ideal) q k (ix3 (0 : Fin 1) r j)
      - broadcastTo S1x1024x1024 (k0_pay8 (F := Ideal) q k m) broadcasts_S1x1024x1_S1x1024x1024 (ix3 (0 : Fin 1) r j)) = _
  rw [pay7_apply, Cert.LibBatch.broadcastTo_ab1_abc_apply, pay8_apply]

/-- The running sum after one block: entry (0, r, u) is the old sum rescaled plus the block's sum of exponentials. -/
theorem pay12_apply (q k : Vec Ideal S1x1024x128 .f32) (m l : Vec Ideal S1x1024x1 .f32) (r : Fin 1024) (u : Fin 1) :
    k0_pay12 (F := Ideal) q k m l (ix3 (0 : Fin 1) r u)
      = Ideal.exp (m (ix3 (0 : Fin 1) r (0 : Fin 1))
            - blkMax BOT (m (ix3 (0 : Fin 1) r (0 : Fin 1)))
                (fun j => kScore INV (fun e => q (ix3 (0 : Fin 1) r e)) (fun e => k (ix3 (0 : Fin 1) j e))))
          * l (ix3 (0 : Fin 1) r (0 : Fin 1))
        + blkSum (blkMax BOT (m (ix3 (0 : Fin 1) r (0 : Fin 1)))
              (fun j => kScore INV (fun e => q (ix3 (0 : Fin 1) r e)) (fun e => k (ix3 (0 : Fin 1) j e))))
            (fun j => kScore INV (fun e => q (ix3 (0 : Fin 1) r e)) (fun e => k (ix3 (0 : Fin 1) j e))) := by
  unfold k0_pay12
  obtain rfl : u = 0 := Subsingleton.elim _ _
  refine (congrFun (shapeCast_self _ _) _).trans ?_
  refine (addf_apply _ _ _).trans ?_
  refine congrArg₂ (· + ·) ?_ ?_
  · refine (mulf_apply _ _ _).trans ?_
    rw [pay9_apply]
  · refine (Cert.LibBatch.shapeCast_ab_ab1_apply _ _ (0 : Fin 1) r (0 : Fin 1)).trans ?_
    refine (Cert.LibBatch.multiReduction_add_last3 _ _ _ _ _ (0 : Fin 1) r).trans ?_
    unfold blkSum
    exact Finset.sum_congr rfl fun j _ => pay10_apply q k m r j

/-- The accumulator after one block, over any rescaling column and weight block: entry (0, r, dd) is the old
    accumulator rescaled plus the weights of row r against column dd of the value block. -/
theorem pay1_apply (a : FVec Ideal S1x1024x1 .f32) (p : FVec Ideal S1x1024x1024 .bf16)
    (v acc : Vec Ideal S1x1024x128 .f32) (r : Fin 1024) (dd : Fin 128) :
    k0_pay1 (F := Ideal) a p v acc (ix3 (0 : Fin 1) r dd)
      = a (ix3 (0 : Fin 1) r (0 : Fin 1)) * acc (ix3 (0 : Fin 1) r dd)
        + ∑ j : Fin 1024, p (ix3 (0 : Fin 1) r j) * v (ix3 (0 : Fin 1) j dd) := by
  unfold k0_pay1
  refine (congrFun (shapeCast_self _ _) _).trans ?_
  refine (addf_apply _ _ _).trans ?_
  refine congrArg₂ (· + ·) ?_ ?_
  · refine (mulf_apply _ _ _).trans ?_
    rw [Cert.LibBatch.broadcastTo_ab1_abc_apply]
  · refine (Cert.LibBatch.bmm_nn_zero_ix3 dot_S1x1024x1024_S1x1024x128_S1x1024x128_2_1_1_2_0_0 rfl rfl rfl rfl rfl rfl none _ _ (0 : Fin 1) r dd).trans ?_
    rw [shapeCast_self]
    rfl

/-- The accumulator after one block: entry (0, r, dd) is the old accumulator rescaled plus the block's sum of
    exponentials each weighing column dd of its value row. -/
theorem acc_apply (q k v : Vec Ideal S1x1024x128 .f32) (m : Vec Ideal S1x1024x1 .f32)
    (acc : Vec Ideal S1x1024x128 .f32) (r : Fin 1024) (dd : Fin 128) :
    k0_pay1 (F := Ideal) (k0_pay9 q k m) (k0_pay11 q k m) v acc (ix3 (0 : Fin 1) r dd)
      = Ideal.exp (m (ix3 (0 : Fin 1) r (0 : Fin 1))
            - blkMax BOT (m (ix3 (0 : Fin 1) r (0 : Fin 1)))
                (fun j => kScore INV (fun e => q (ix3 (0 : Fin 1) r e)) (fun e => k (ix3 (0 : Fin 1) j e))))
          * acc (ix3 (0 : Fin 1) r dd)
        + blkAcc (blkMax BOT (m (ix3 (0 : Fin 1) r (0 : Fin 1)))
              (fun j => kScore INV (fun e => q (ix3 (0 : Fin 1) r e)) (fun e => k (ix3 (0 : Fin 1) j e))))
            (fun j => kScore INV (fun e => q (ix3 (0 : Fin 1) r e)) (fun e => k (ix3 (0 : Fin 1) j e)))
            (fun j => v (ix3 (0 : Fin 1) j dd)) := by
  refine (pay1_apply _ _ _ _ r dd).trans ?_
  rw [pay9_apply]
  refine congrArg₂ (fun x y : EReal => x + y) rfl ?_
  unfold blkAcc
  refine Finset.sum_congr rfl fun j _ => ?_
  refine congrArg (fun x : EReal => x * v (ix3 (0 : Fin 1) j dd)) ?_
  exact pay10_apply q k m r j

/-- The stored block: entry (0, r, dd) is the accumulator times the reciprocal of the sum. -/
theorem pay3_apply (acc : Vec Ideal S1x1024x128 .f32) (l : Vec Ideal S1x1024x1 .f32) (r : Fin 1024) (dd : Fin 128) :
    k0_pay3 (F := Ideal) acc l (ix3 (0 : Fin 1) r dd)
      = acc (ix3 (0 : Fin 1) r dd) * Ideal.div ONE (l (ix3 (0 : Fin 1) r (0 : Fin 1))) := by
  unfold k0_pay3
  refine (mulf_apply _ _ _).trans ?_
  rw [Cert.LibBatch.broadcastTo_ab1_abc_apply]
  rfl

/-- The reset maximum is the floor everywhere. -/
theorem pay4_apply (r : Fin 1024) (u : Fin 1) : k0_pay4 (F := Ideal) (ix3 (0 : Fin 1) r u) = NEG := by
  unfold k0_pay4
  rw [shapeCast_self]
  rfl

/-- The reset sum is zero everywhere. -/
theorem pay5_apply (r : Fin 1024) (u : Fin 1) : k0_pay5 (F := Ideal) (ix3 (0 : Fin 1) r u) = ZERO := by
  unfold k0_pay5
  rw [shapeCast_self]
  rfl

/-- The reset accumulator is zero everywhere. -/
theorem pay6_apply (r : Fin 1024) (dd : Fin 128) : k0_pay6 (F := Ideal) (ix3 (0 : Fin 1) r dd) = ZERO := by
  unfold k0_pay6
  rw [shapeCast_self]
  rfl

/-- The running maximum a first-block point leaves, at (0, r, u): the block's maximum from the floor. -/
theorem firstMax_apply (q k : Vec Ideal S1x1024x128 .f32) (r : Fin 1024) (u : Fin 1) :
    firstMax (F := Ideal) q k (ix3 (0 : Fin 1) r u)
      = blkMax BOT NEG (fun j => kScore INV (fun e => q (ix3 (0 : Fin 1) r e)) (fun e => k (ix3 (0 : Fin 1) j e))) := by
  unfold firstMax k0_pay2
  refine (congrFun (shapeCast_self _ _) _).trans ?_
  rw [pay8_apply, pay4_apply]

/-- The running sum a first-block point leaves, at (0, r, u): the zero sum rescaled plus the block's sum. -/
theorem firstSum_apply (q k : Vec Ideal S1x1024x128 .f32) (r : Fin 1024) (u : Fin 1) :
    firstSum (F := Ideal) q k (ix3 (0 : Fin 1) r u)
      = Ideal.exp (NEG - blkMax BOT NEG
              (fun j => kScore INV (fun e => q (ix3 (0 : Fin 1) r e)) (fun e => k (ix3 (0 : Fin 1) j e)))) * ZERO
        + blkSum (blkMax BOT NEG
              (fun j => kScore INV (fun e => q (ix3 (0 : Fin 1) r e)) (fun e => k (ix3 (0 : Fin 1) j e))))
            (fun j => kScore INV (fun e => q (ix3 (0 : Fin 1) r e)) (fun e => k (ix3 (0 : Fin 1) j e))) := by
  unfold firstSum
  rw [pay12_apply, pay4_apply, pay5_apply]

/-- The accumulator a first-block point leaves, at (0, r, dd): the zero block rescaled plus the block's weighted sum. -/
theorem firstAcc_apply (q k v : Vec Ideal S1x1024x128 .f32) (r : Fin 1024) (dd : Fin 128) :
    firstAcc (F := Ideal) q k v (ix3 (0 : Fin 1) r dd)
      = Ideal.exp (NEG - blkMax BOT NEG
              (fun j => kScore INV (fun e => q (ix3 (0 : Fin 1) r e)) (fun e => k (ix3 (0 : Fin 1) j e)))) * ZERO
        + blkAcc (blkMax BOT NEG
              (fun j => kScore INV (fun e => q (ix3 (0 : Fin 1) r e)) (fun e => k (ix3 (0 : Fin 1) j e))))
            (fun j => kScore INV (fun e => q (ix3 (0 : Fin 1) r e)) (fun e => k (ix3 (0 : Fin 1) j e)))
            (fun j => v (ix3 (0 : Fin 1) j dd)) := by
  unfold firstAcc
  rw [acc_apply, pay4_apply, pay6_apply]

/-- Entry (0, r, dd) of the block a second-block point stores, when the point before it (a first-block point)
    loaded the blocks `qA kA vA` and this one loads `qB kB vB`: the two-block online softmax of row `r`, the
    scores the scaled query rows against the key rows of each block, the values column `dd` of each value block. -/
theorem outBlock_apply (qA kA vA qB kB vB : Vec Ideal S1x1024x128 .f32) (r : Fin 1024) (dd : Fin 128) :
    outBlock (F := Ideal) qB kB vB (firstMax qA kA) (firstSum qA kA) (firstAcc qA kA vA) (ix3 (0 : Fin 1) r dd)
      = flashRow NEG BOT ZERO ONE
          (fun j => kScore INV (fun e => qA (ix3 (0 : Fin 1) r e)) (fun e => kA (ix3 (0 : Fin 1) j e)))
          (fun j => kScore INV (fun e => qB (ix3 (0 : Fin 1) r e)) (fun e => kB (ix3 (0 : Fin 1) j e)))
          (fun j => vA (ix3 (0 : Fin 1) j dd)) (fun j => vB (ix3 (0 : Fin 1) j dd)) := by
  unfold outBlock nextAcc nextSum
  rw [pay3_apply, acc_apply, pay12_apply, firstMax_apply, firstSum_apply, firstAcc_apply]
  unfold flashRow
  rfl

end Cert.KernelIdeal.Attn

end
-- ==== Proof.AttnSpec.lean ====
/-
  The kernel's result as one function of its three argument arrays.

  The [4, 16, 2048, 128] arguments are re-laid as [64, 2048, 128] (batch and head merged); entry (bh, i, dd) of the
  attention over those is the two-block online softmax of query row (bh, i) against the keys of batch·head bh,
  weighing column dd of its values; the result is re-laid back as [4, 16, 2048, 128].
-/
import proofs.«406588_j47674136985727_3_alg».proof.KernelIdeal
import proofs.«406588_j47674136985727_3_alg».proof.Proof.Consts
import proofs.«406588_j47674136985727_3_alg».proof.Proof.OnlineSoftmax
import Idealize.ShloMosaic.Lib.ValueIdx

noncomputable section

namespace Cert.KernelIdeal.Attn

open Idealize.ShloMosaic Idealize.ShloMosaic.ValueIdx Cert.KernelIdeal Cert.OnlineSoftmax

/-- Attention over [64, 2048, 128] arrays, entry by entry: the two-block online softmax of query row (bh, i)
    against the keys of batch·head bh, weighing column dd of its values. -/
def rowsOut (q k v : S64x2048x128.Idx → EReal) : S64x2048x128.Idx → EReal := fun idx =>
  flashRow NEG BOT ZERO ONE
    (fun j => kScore INV (fun e => q (ix3 (idx 0) (idx 1) e)) (fun e => k (ix3 (idx 0) (lo j) e)))
    (fun j => kScore INV (fun e => q (ix3 (idx 0) (idx 1) e)) (fun e => k (ix3 (idx 0) (hi j) e)))
    (fun j => v (ix3 (idx 0) (lo j) (idx 2))) (fun j => v (ix3 (idx 0) (hi j) (idx 2)))

/-- The same over the [4, 16, 2048, 128] arguments: merge batch and head, attend, split them again. -/
def attnOut [Cert.KernelIdeal.Facts] (Q K V : S4x16x2048x128.Idx → EReal) : S4x16x2048x128.Idx → EReal :=
  shapeCast S4x16x2048x128
    (rowsOut (shapeCast S64x2048x128 Q Facts₀.shapeCasts_S4x16x2048x128_S64x2048x128)
      (shapeCast S64x2048x128 K Facts₀.shapeCasts_S4x16x2048x128_S64x2048x128)
      (shapeCast S64x2048x128 V Facts₀.shapeCasts_S4x16x2048x128_S64x2048x128))
    Facts₀.shapeCasts_S64x2048x128_S4x16x2048x128

end Cert.KernelIdeal.Attn

end
-- ==== Proof.KernelValue.lean ====
/-
  The kernel's result array. Its grid runs over (batch·head, query block, key block) with two key blocks, so the
  points come in consecutive pairs: the even point of a pair resets the running maximum, sum and accumulator and
  takes the first key block's step, the odd point takes the second key block's step from what the even point left
  and writes the output block back. Row r of the block the odd point of pair (bh, qi) writes back is therefore the
  two-block online softmax of query row 1024·qi + r of batch·head bh against that batch·head's keys and values —
  one function of the three arrays the region finds, whose blocks tile the result array.
-/
import proofs.«406588_j47674136985727_3_alg».proof.Proof.Gen.KernelIdeal.Frame
import proofs.«406588_j47674136985727_3_alg».proof.Proof.Pieces
import proofs.«406588_j47674136985727_3_alg».proof.Proof.KernelRows
import proofs.«406588_j47674136985727_3_alg».proof.Proof.AttnSpec
import Idealize.ShloMosaic.Lib.Pipeline.Value
import Idealize.ShloMosaic.Lib.StableHlo.Run
import Idealize.ShloMosaic.Lib.Tactic

set_option maxRecDepth 16384

noncomputable section

namespace Cert.KernelIdeal.Attn

open Idealize.ShloMosaic Idealize.ShloMosaic.TcCoe Idealize.SL.Sem Idealize.ShloMosaic.ValueIdx
open Cert.KernelIdeal Cert.KernelIdeal.Gen Cert.OnlineSoftmax
open Idealize.ShloMosaic.Pipeline (Dat)

variable (m : (ℓ : Loc nD τ sig) → Buf (Elt Ideal) ℓ) (ρ : Dev nD → PrngReg)

/-- The three input blocks a point loads, and the three arrays the region finds, at their literal types. -/
abbrev qblk (c : Dev nD) (t : Fin cfg0.N) : Vec Ideal S1x1024x128 .f32 := iblk m c 0 t
abbrev kblk (c : Dev nD) (t : Fin cfg0.N) : Vec Ideal S1x1024x128 .f32 := iblk m c 1 t
abbrev vblk (c : Dev nD) (t : Fin cfg0.N) : Vec Ideal S1x1024x128 .f32 := iblk m c 2 t
abbrev qarr (c : Dev nD) : Vec Ideal S64x2048x128 .f32 := V m c main_v0
abbrev karr (c : Dev nD) : Vec Ideal S64x2048x128 .f32 := V m c main_v1
abbrev varr (c : Dev nD) : Vec Ideal S64x2048x128 .f32 := V m c main_v2

/-- The printed index maps over the grid: point t is (batch·head t / 4, query block t / 2 mod 2, key block t mod 2);
    queries and the output follow the query block, keys and values the key block. -/
theorem idx_facts : ∀ t : Fin cfg0.N,
    win0_0.index t (0 : Fin 3) = t.val / 4 ∧ win0_0.index t (1 : Fin 3) = t.val / 2 % 2 ∧ win0_0.index t (2 : Fin 3) = 0
    ∧ win0_1.index t (0 : Fin 3) = t.val / 4 ∧ win0_1.index t (1 : Fin 3) = t.val % 2 ∧ win0_1.index t (2 : Fin 3) = 0
    ∧ win0_2.index t (0 : Fin 3) = t.val / 4 ∧ win0_2.index t (1 : Fin 3) = t.val % 2 ∧ win0_2.index t (2 : Fin 3) = 0
    ∧ win0_3.index t (0 : Fin 3) = t.val / 4 ∧ win0_3.index t (1 : Fin 3) = t.val / 2 % 2 ∧ win0_3.index t (2 : Fin 3) = 0 :=
  (by decide +kernel : ∀ t : Fin grid0.N, _)

/-- Row r of the query block at point t is row 1024·(t / 2 mod 2) + r of batch·head t / 4. -/
theorem qblk_apply (c : Dev nD) (t : Fin cfg0.N) (r : Fin 1024) (b : Fin 64) (i : Fin 2048)
    (hb : t.val / 4 = b.val) (hi : t.val / 2 % 2 * 1024 + r.val = i.val) (e : Fin 128) :
    qblk m c t (ix3 (0 : Fin 1) r e) = qarr m c (ix3 b i e) := by
  obtain ⟨e0, e1, e2, -⟩ := idx_facts t
  show ((cfg0.win 0).blk t).view.read (Elt Ideal) (V m c (Pipeline.arrRef spec0 0)) (ix3 (0 : Fin 1) r e) = _
  rw [View.read_apply]
  show V m c main_v0 _ = V m c main_v0 _
  congr 1
  funext a; apply Fin.ext
  match a with
  | ⟨0, _⟩ => show win0_0.index t (0 : Fin 3) * 1 + 1 * 0 = b.val; omega
  | ⟨1, _⟩ => show win0_0.index t (1 : Fin 3) * 1024 + 1 * r.val = i.val; omega
  | ⟨2, _⟩ => show win0_0.index t (2 : Fin 3) * 128 + 1 * e.val = e.val; omega

/-- Row j of the key block at point t is row 1024·(t mod 2) + j of batch·head t / 4. -/
theorem kblk_apply (c : Dev nD) (t : Fin cfg0.N) (b : Fin 64) (hb : t.val / 4 = b.val)
    (j : Fin 1024) (i : Fin 2048) (hi : t.val % 2 * 1024 + j.val = i.val) (e : Fin 128) :
    kblk m c t (ix3 (0 : Fin 1) j e) = karr m c (ix3 b i e) := by
  obtain ⟨-, -, -, e0, e1, e2, -⟩ := idx_facts t
  show ((cfg0.win 1).blk t).view.read (Elt Ideal) (V m c (Pipeline.arrRef spec0 1)) (ix3 (0 : Fin 1) j e) = _
  rw [View.read_apply]
  show V m c main_v1 _ = V m c main_v1 _
  congr 1
  funext a; apply Fin.ext
  match a with
  | ⟨0, _⟩ => show win0_1.index t (0 : Fin 3) * 1 + 1 * 0 = b.val; omega
  | ⟨1, _⟩ => show win0_1.index t (1 : Fin 3) * 1024 + 1 * j.val = i.val; omega
  | ⟨2, _⟩ => show win0_1.index t (2 : Fin 3) * 128 + 1 * e.val = e.val; omega

/-- Row j of the value block at point t is row 1024·(t mod 2) + j of batch·head t / 4. -/
theorem vblk_apply (c : Dev nD) (t : Fin cfg0.N) (b : Fin 64) (hb : t.val / 4 = b.val)
    (j : Fin 1024) (i : Fin 2048) (hi : t.val % 2 * 1024 + j.val = i.val) (e : Fin 128) :
    vblk m c t (ix3 (0 : Fin 1) j e) = varr m c (ix3 b i e) := by
  obtain ⟨-, -, -, -, -, -, e0, e1, e2, -⟩ := idx_facts t
  show ((cfg0.win 2).blk t).view.read (Elt Ideal) (V m c (Pipeline.arrRef spec0 2)) (ix3 (0 : Fin 1) j e) = _
  rw [View.read_apply]
  show V m c main_v2 _ = V m c main_v2 _
  congr 1
  funext a; apply Fin.ext
  match a with
  | ⟨0, _⟩ => show win0_2.index t (0 : Fin 3) * 1 + 1 * 0 = b.val; omega
  | ⟨1, _⟩ => show win0_2.index t (1 : Fin 3) * 1024 + 1 * j.val = i.val; omega
  | ⟨2, _⟩ => show win0_2.index t (2 : Fin 3) * 128 + 1 * e.val = e.val; omega

/-- Entry (0, r, dd) of the output block at point t sits in the result array at row 1024·(t / 2 mod 2) + r of
    batch·head t / 4, column dd. -/
theorem out_emb (t : Fin cfg0.N) (r : Fin 1024) (dd : Fin 128) (b : Fin 64) (i : Fin 2048)
    (hb : t.val / 4 = b.val) (hi : t.val / 2 % 2 * 1024 + r.val = i.val) :
    ((cfg0.win 3).blk t).view.emb (ix3 (0 : Fin 1) r dd) = (ix3 b i dd : S64x2048x128.Idx) := by
  obtain ⟨-, -, -, -, -, -, -, -, -, e0, e1, e2⟩ := idx_facts t
  funext a; apply Fin.ext
  match a with
  | ⟨0, _⟩ => show win0_3.index t (0 : Fin 3) * 1 + 1 * 0 = b.val; omega
  | ⟨1, _⟩ => show win0_3.index t (1 : Fin 3) * 1024 + 1 * r.val = i.val; omega
  | ⟨2, _⟩ => show win0_3.index t (2 : Fin 3) * 128 + 1 * dd.val = dd.val; omega

/-- WHAT AN ODD POINT WRITES BACK is its block of the attention over the arrays the region finds: the odd point's
    output block is the second-block step over what the even point before it left, the even point's scratch the
    first-block step from the reset values, and the two points load the same query rows, the two halves of the
    keys and the two halves of the values. -/
theorem flushed_eq (c : Dev nD) (t : Fin cfg0.N) (hf : (cfg0.win 3).flush t = true) :
    (dats m 0 c).flushed 3 t
      = ((cfg0.win 3).blk t).view.read (Elt Ideal) (rowsOut (qarr m c) (karr m c) (varr m c)) := by
  have hN : cfg0.N = 256 := N_0
  have h1 : t.val % 2 = 1 := (flush0_3 t).mp hf
  have h0 : ¬ t.val % 2 = 0 := by omega
  have hlt : t.val - 1 < cfg0.N := Nat.lt_of_le_of_lt (Nat.sub_le _ _) t.isLt
  have h0' : (⟨t.val - 1, hlt⟩ : Fin cfg0.N).val % 2 = 0 := by dsimp only; omega
  have h1' : ¬ (⟨t.val - 1, hlt⟩ : Fin cfg0.N).val % 2 = 1 := by dsimp only; omega
  show (cfg0.win 3).cut (grid0.coords t) ((dats m 0 c).after 3 t) = _
  rw [after0_3, outsAt0_B m c t h0 h1]
  dsimp only
  rw [outBlock_found]
  rw [show outsAt0 m c (t.val - 1) (Nat.lt_of_le_of_lt (Nat.sub_le _ _) t.isLt) = _ from
    outsAt0_A m c ⟨t.val - 1, hlt⟩ h0' h1']
  dsimp only
  rw [firstMax_found, firstSum_found, firstAcc_found]
  funext y
  obtain ⟨r, dd, rfl⟩ : ∃ (r : Fin 1024) (dd : Fin 128), y = (ix3 (0 : Fin 1) r dd : S1x1024x128.Idx) :=
    ⟨y 1, y 2, funext fun a => by
      match a with
      | ⟨0, _⟩ => exact Subsingleton.elim (α := Fin 1) _ _
      | ⟨1, _⟩ => rfl
      | ⟨2, _⟩ => rfl⟩
  have hb : t.val / 4 = (⟨t.val / 4, by omega⟩ : Fin 64).val := rfl
  have hrow : t.val / 2 % 2 * 1024 + r.val = (⟨t.val / 2 % 2 * 1024 + r.val, by have := r.isLt; omega⟩ : Fin 2048).val := rfl
  have hb' : (⟨t.val - 1, hlt⟩ : Fin cfg0.N).val / 4 = (⟨t.val / 4, by omega⟩ : Fin 64).val := by dsimp only; omega
  have hrow' : (⟨t.val - 1, hlt⟩ : Fin cfg0.N).val / 2 % 2 * 1024 + r.val
      = (⟨t.val / 2 % 2 * 1024 + r.val, by have := r.isLt; omega⟩ : Fin 2048).val := by dsimp only; omega
  rw [View.read_apply]
  show outBlock (qblk m c t) (kblk m c t) (vblk m c t)
        (firstMax (qblk m c ⟨t.val - 1, hlt⟩) (kblk m c ⟨t.val - 1, hlt⟩))
        (firstSum (qblk m c ⟨t.val - 1, hlt⟩) (kblk m c ⟨t.val - 1, hlt⟩))
        (firstAcc (qblk m c ⟨t.val - 1, hlt⟩) (kblk m c ⟨t.val - 1, hlt⟩) (vblk m c ⟨t.val - 1, hlt⟩)) (ix3 (0 : Fin 1) r dd)
      = rowsOut (qarr m c) (karr m c) (varr m c) (((cfg0.win 3).blk t).view.emb (ix3 (0 : Fin 1) r dd))
  rw [out_emb t r dd _ _ hb hrow]
  refine (outBlock_apply (qblk m c ⟨t.val - 1, hlt⟩) (kblk m c ⟨t.val - 1, hlt⟩) (vblk m c ⟨t.val - 1, hlt⟩)
    (qblk m c t) (kblk m c t) (vblk m c t) r dd).trans ?_
  have hqA := qblk_apply m c ⟨t.val - 1, hlt⟩ r _ _ hb' hrow'
  have hqB := qblk_apply m c t r _ _ hb hrow
  have hkA : ∀ (j : Fin 1024) (e : Fin 128), kblk m c ⟨t.val - 1, hlt⟩ (ix3 (0 : Fin 1) j e)
      = karr m c (ix3 (⟨t.val / 4, by omega⟩ : Fin 64) (lo j) e) := fun j e =>
    kblk_apply m c ⟨t.val - 1, hlt⟩ _ hb' j (lo j) (by show (t.val - 1) % 2 * 1024 + j.val = j.val; omega) e
  have hkB : ∀ (j : Fin 1024) (e : Fin 128), kblk m c t (ix3 (0 : Fin 1) j e)
      = karr m c (ix3 (⟨t.val / 4, by omega⟩ : Fin 64) (hi j) e) := fun j e =>
    kblk_apply m c t _ hb j (hi j) (by show t.val % 2 * 1024 + j.val = 1024 + j.val; omega) e
  have hvA : ∀ (j : Fin 1024) (e : Fin 128), vblk m c ⟨t.val - 1, hlt⟩ (ix3 (0 : Fin 1) j e)
      = varr m c (ix3 (⟨t.val / 4, by omega⟩ : Fin 64) (lo j) e) := fun j e =>
    vblk_apply m c ⟨t.val - 1, hlt⟩ _ hb' j (lo j) (by show (t.val - 1) % 2 * 1024 + j.val = j.val; omega) e
  have hvB : ∀ (j : Fin 1024) (e : Fin 128), vblk m c t (ix3 (0 : Fin 1) j e)
      = varr m c (ix3 (⟨t.val / 4, by omega⟩ : Fin 64) (hi j) e) := fun j e =>
    vblk_apply m c t _ hb j (hi j) (by show t.val % 2 * 1024 + j.val = 1024 + j.val; omega) e
  simp only [hqA, hqB, hkA, hkB, hvA, hvB]
  rfl

/-- An index of the result array is in point t's block iff each coordinate is in the block's range on its axis. -/
theorem mem_blk3 (t : Fin cfg0.N) (i : S64x2048x128.Idx) :
    i ∈ ((cfg0.win 3).blk t).view.set ↔ ∀ a : Fin 3, win0_3.index t a * S1x1024x128.size a ≤ (i a).val
      ∧ (i a).val < win0_3.index t a * S1x1024x128.size a + S1x1024x128.size a := by
  show i ∈ ((View.whole main_v3).slice (win0_3.rect t)).set ↔ _
  rw [View.set_slice_whole, Rect.mem_set_unit]
  exact Iff.rfl

/-- Every entry (bh, i, dd) of the result array is in the block the odd point of pair (bh, i / 1024) writes back. -/
theorem covered (i : S64x2048x128.Idx) :
    ∃ t : Fin cfg0.N, (cfg0.win 3).flush t = true ∧ i ∈ ((cfg0.win 3).blk t).view.set := by
  have hN : cfg0.N = 256 := N_0
  have h0 : (i 0).val < 64 := (i 0).isLt
  have h1 : (i 1).val < 2048 := (i 1).isLt
  have h2 : (i 2).val < 128 := (i 2).isLt
  refine ⟨⟨4 * (i 0).val + 2 * ((i 1).val / 1024) + 1, by omega⟩, (flush0_3 _).mpr (by dsimp only; omega), ?_⟩
  rw [mem_blk3]
  obtain ⟨-, -, -, -, -, -, -, -, -, e0, e1, e2⟩ := idx_facts ⟨4 * (i 0).val + 2 * ((i 1).val / 1024) + 1, by omega⟩
  intro a
  match a with
  | ⟨0, _⟩ =>
    show win0_3.index _ (0 : Fin 3) * 1 ≤ (i 0).val ∧ (i 0).val < win0_3.index _ (0 : Fin 3) * 1 + 1
    rw [e0]; dsimp only; omega
  | ⟨1, _⟩ =>
    show win0_3.index _ (1 : Fin 3) * 1024 ≤ (i 1).val ∧ (i 1).val < win0_3.index _ (1 : Fin 3) * 1024 + 1024
    rw [e1]; dsimp only; omega
  | ⟨2, _⟩ =>
    show win0_3.index _ (2 : Fin 3) * 128 ≤ (i 2).val ∧ (i 2).val < win0_3.index _ (2 : Fin 3) * 128 + 128
    rw [e2]; omega

/-- THE RESULT ARRAY of the region after the run: the attention over the arrays the region finds. -/
theorem final3 (c : Dev nD) : (dats m 0 c).arrAt 3 cfg0.N = rowsOut (qarr m c) (karr m c) (varr m c) :=
  (dats m 0 c).arrAt_eq_of_cover 3 (rowsOut (qarr m c) (karr m c) (varr m c)) (flushed_eq m c) covered

end Cert.KernelIdeal.Attn

end
-- ==== Proof.KernelRun.lean ====
/-
  The kernel's run, read: the host lines before the region re-lay the three arguments as [64, 2048, 128], the
  region leaves the attention over those in its result array, and the host line after it re-lays that as
  [4, 16, 2048, 128]; the arguments end as they began.
-/
import proofs.«406588_j47674136985727_3_alg».proof.Proof.KernelValue

set_option maxRecDepth 16384

noncomputable section

namespace Cert.KernelIdeal.Attn

open Idealize.ShloMosaic Idealize.ShloMosaic.TcCoe Idealize.SL.Sem Idealize.ShloMosaic.ValueIdx
open Cert.KernelIdeal Cert.KernelIdeal.Gen Cert.OnlineSoftmax
open Idealize.ShloMosaic.Pipeline (Dat)

variable (m : (ℓ : Loc nD τ sig) → Buf (Elt Ideal) ℓ) (ρ : Dev nD → PrngReg)

/-- The queries as the region finds them: the first argument with batch and head merged. -/
theorem qarr_eq (c : Dev nD) :
    qarr m c = shapeCast S64x2048x128 (m ((c : Thread nD τ).loc main_arg0)) Facts₀.shapeCasts_S4x16x2048x128_S64x2048x128 := by
  show StableHlo.after hostOps0 (fun b => m (c, b)) (Proc.devRef .tc main_v0) = _
  after_results
  rfl

/-- The keys as the region finds them: the second argument with batch and head merged. -/
theorem karr_eq (c : Dev nD) :
    karr m c = shapeCast S64x2048x128 (m ((c : Thread nD τ).loc main_arg1)) Facts₀.shapeCasts_S4x16x2048x128_S64x2048x128 := by
  show StableHlo.after hostOps0 (fun b => m (c, b)) (Proc.devRef .tc main_v1) = _
  after_results
  rfl

/-- The values as the region finds them: the third argument with batch and head merged. -/
theorem varr_eq (c : Dev nD) :
    varr m c = shapeCast S64x2048x128 (m ((c : Thread nD τ).loc main_arg2)) Facts₀.shapeCasts_S4x16x2048x128_S64x2048x128 := by
  show StableHlo.after hostOps0 (fun b => m (c, b)) (Proc.devRef .tc main_v2) = _
  after_results
  rfl

/-- What the host line after the region leaves in the program's result: the region's result array re-laid. -/
theorem tail_eq (c : Dev nD) :
    Pipeline.afterTail₀ cfgs (dats m) 0 (V0 m) [hostOps1] c main_v4
      = attnOut (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = rowsOut (qarr m c) (karr m c) (varr m c) :=
    (Pipeline.withArrays_arr spec0 launch0.win.arr_inj c _ _ 3).trans (final3 m c)
  rw [e, qarr_eq, karr_eq, varr_eq]
  rfl

/-- THE RUN, READ: every weakly fair execution of the program ends with its result at the attention over the
    three arguments, and the arguments as they were. -/
theorem run : θ_run defs (onTc (τ := τ) (main (F := Ideal))) ⟨m, fun _ => 0, ρ⟩ fun r => ∀ c : Dev nD,
      r.2.mem ((c : Thread nD τ).loc main_v4)
        = attnOut (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Attn

end
-- ==== Proof.RefValue.lean ====
/-
  The reference at an index: scaled scores, the row softmax and the weighted sum of value rows, read one
  operation at a time off the reference's run.
-/
import proofs.«406588_j47674136985727_3_alg».proof.Proof.Gen.ReferenceIdeal.Read
import proofs.«406588_j47674136985727_3_alg».proof.Proof.Consts
import proofs.«406588_j47674136985727_3_alg».proof.Proof.OnlineSoftmax

noncomputable section

namespace Cert.RefValue

open Idealize.ShloMosaic Idealize.ShloMosaic.ValueIdx Cert.ReferenceIdeal Cert.OnlineSoftmax
open Cert.KernelIdeal.Attn (BOT ZERO SCALE)

/-- The host's maximum over the last axis of an [a, b, c, d] array reads, at (p, q, r), the maximum from the initial
    value over k of the array at (p, q, r, k). -/
theorem hostReduceMax_last4 {φ : FTy} {a b c d : ℕ} {u : Shape} (x : FVec Ideal ⟨4, ![a, b, c, d]⟩ φ)
    (init : u.Idx → Ideal φ)
    (h' : (⟨4, ![a, b, c, d]⟩ : Shape).ReducesTo [3] ⟨3, ![a, b, c]⟩)
    (h : (⟨4, ![a, b, c, d]⟩ : Shape).Reduces [3] ⟨3, ![a, b, c]⟩)
    (hu : 0 < u.numel) (p : Fin a) (q : Fin b) (r : Fin c) :
    Host.reduce FloatOps.maximumf x init h' hu (ix3 p q r)
      = (Finset.univ : Finset (Fin d)).fold max (init (Shape.Idx.first hu)) (fun k => x (ix4 p q r k)) := by
  rw [Host.reduce_eq_fold_single FloatOps.maximumf x init h' h hu]
  show (Finset.univ : Finset (Fin d)).fold max (init (Shape.Idx.first hu)) (x ∘ h.lift (ix3 p q r)) = _
  refine congrArg (fun f => Finset.fold max (init (Shape.Idx.first hu)) f Finset.univ) (funext fun k => ?_)
  refine congrArg x (funext fun e => Fin.ext ?_)
  match e with
  | ⟨0, _⟩ => rfl
  | ⟨1, _⟩ => rfl
  | ⟨2, _⟩ => rfl
  | ⟨3, _⟩ => rfl

/-- The scaled score of query row (b, h, i) against key row (b, h, j): the contraction over the 128 features,
    divided by the scale. -/
theorem score_apply (Q K : (⟨Cert.ReferenceIdeal.S4x16x2048x128, .f32⟩ : BufTy).Contents (Elt Ideal)) (b : Fin 4) (h : Fin 16) (i j : Fin 2048) :
    Read.val_main_v2 (F := Ideal) Q K (ix4 b h i j)
      = rScore SCALE (fun e => Q (ix4 b h i e)) (fun e => K (ix4 b h j e)) := by
  rw [Read.val_main_v2_apply, Read.val_main_v0_apply, Read.val_main_v1_apply, Read.val_main_cst_apply]
  have el : ∀ e : Fin 128, Read.lidx_main_v0 (ix4 b h i j) e = ix4 b h i e := fun e =>
    funext fun a => by match a with | ⟨0, _⟩ => rfl | ⟨1, _⟩ => rfl | ⟨2, _⟩ => rfl | ⟨3, _⟩ => rfl
  have er : ∀ e : Fin 128, Read.ridx_main_v0 (ix4 b h i j) e = ix4 b h j e := fun e =>
    funext fun a => by match a with | ⟨0, _⟩ => rfl | ⟨1, _⟩ => rfl | ⟨2, _⟩ => rfl | ⟨3, _⟩ => rfl
  simp only [el, er, Ideal.hostDivf_def, Ideal.ofBits_def]
  rfl

/-- The row maximum of query row (b, h, i): the scores folded by the maximum from minus infinity. -/
theorem rowMax_apply (Q K : (⟨Cert.ReferenceIdeal.S4x16x2048x128, .f32⟩ : BufTy).Contents (Elt Ideal)) (b : Fin 4) (h : Fin 16) (i : Fin 2048) :
    Read.val_main_v3 (F := Ideal) Q K (ix3 b h i)
      = (Finset.univ : Finset (Fin 2048)).fold max BOT
          (fun j => rScore SCALE (fun e => Q (ix4 b h i e)) (fun e => K (ix4 b h j e))) := by
  unfold Read.val_main_v3
  refine (hostReduceMax_last4 (Read.val_main_v2 (F := Ideal) Q K) (Read.val_main_cst_0 (F := Ideal))
    Gen.reducesTo_S4x16x2048x2048_S4x16x2048_d3 (by decide) Gen.h_S_ b h i).trans ?_
  refine congrArg (fun f => Finset.fold max BOT f Finset.univ) (funext fun j => ?_)
  exact score_apply Q K b h i j

/-- The shift of query row (b, h, i), as every entry (b, h, i, j) of the broadcast reads it: the row maximum once
    more against minus infinity. -/
theorem shift_apply (Q K : (⟨Cert.ReferenceIdeal.S4x16x2048x128, .f32⟩ : BufTy).Contents (Elt Ideal)) (b : Fin 4) (h : Fin 16) (i j : Fin 2048) :
    Read.val_main_v7 (F := Ideal) Q K (ix4 b h i j)
      = max BOT ((Finset.univ : Finset (Fin 2048)).fold max BOT
          (fun j => rScore SCALE (fun e => Q (ix4 b h i e)) (fun e => K (ix4 b h j e)))) := by
  rw [Read.val_main_v7_apply, Read.val_main_v6_apply]
  have e3 : Read.idx_main_v6 (Read.idx_main_v7 (ix4 b h i j)) = ix3 b h i :=
    funext fun a => by match a with | ⟨0, _⟩ => rfl | ⟨1, _⟩ => rfl | ⟨2, _⟩ => rfl
  rw [e3, Read.val_main_v5_apply, Read.val_main_v4_apply, Read.val_main_cst_1_apply, rowMax_apply]
  rfl

/-- The exponential of a score less its row's shift. -/
theorem expo_apply (Q K : (⟨Cert.ReferenceIdeal.S4x16x2048x128, .f32⟩ : BufTy).Contents (Elt Ideal)) (b : Fin 4) (h : Fin 16) (i j : Fin 2048) :
    Read.val_main_v9 (F := Ideal) Q K (ix4 b h i j)
      = Ideal.exp (rScore SCALE (fun e => Q (ix4 b h i e)) (fun e => K (ix4 b h j e))
          - max BOT ((Finset.univ : Finset (Fin 2048)).fold max BOT
              (fun j => rScore SCALE (fun e => Q (ix4 b h i e)) (fun e => K (ix4 b h j e))))) := by
  rw [Read.val_main_v9_apply, Read.val_main_v8_apply, score_apply, shift_apply]
  rfl

/-- The row's sum of exponentials, taken from zero, as every entry (b, h, i, j) of the broadcast reads it. -/
theorem rowSum_apply (Q K : (⟨Cert.ReferenceIdeal.S4x16x2048x128, .f32⟩ : BufTy).Contents (Elt Ideal)) (b : Fin 4) (h : Fin 16) (i j : Fin 2048) :
    Read.val_main_v12 (F := Ideal) Q K (ix4 b h i j)
      = ZERO + ∑ j' : Fin 2048,
          Ideal.exp (rScore SCALE (fun e => Q (ix4 b h i e)) (fun e => K (ix4 b h j' e))
            - max BOT ((Finset.univ : Finset (Fin 2048)).fold max BOT
                (fun j => rScore SCALE (fun e => Q (ix4 b h i e)) (fun e => K (ix4 b h j e))))) := by
  rw [Read.val_main_v12_apply, Read.val_main_v11_apply]
  have e3 : Read.idx_main_v11 (Read.idx_main_v12 (ix4 b h i j)) = ix3 b h i :=
    funext fun a => by match a with | ⟨0, _⟩ => rfl | ⟨1, _⟩ => rfl | ⟨2, _⟩ => rfl
  rw [e3, Read.val_main_v10_apply, Read.val_main_cst_2_apply]
  refine congrArg (fun s => ZERO + s) (Finset.sum_congr rfl fun k _ => ?_)
  have e4 : Read.idx_main_v10 (ix3 b h i) k = ix4 b h i k :=
    funext fun a => by match a with | ⟨0, _⟩ => rfl | ⟨1, _⟩ => rfl | ⟨2, _⟩ => rfl | ⟨3, _⟩ => rfl
  rw [e4, expo_apply]

/-- Entry (b, h, i, dd) of the reference's result: the one-piece row softmax of query row (b, h, i) against all
    the key rows of (b, h), each score the contraction divided by the scale, weighing column `dd` of the value rows. -/
theorem ref_apply (Q K V : (⟨Cert.ReferenceIdeal.S4x16x2048x128, .f32⟩ : BufTy).Contents (Elt Ideal))
    (b : Fin 4) (h : Fin 16) (i : Fin 2048) (dd : Fin 128) :
    Cert.ReferenceIdeal.Read.val_main_v14 (F := Ideal) Q K V (ix4 b h i dd)
      = softmaxRow BOT ZERO
          (fun j => rScore SCALE (fun e => Q (ix4 b h i e)) (fun e => K (ix4 b h j e)))
          (fun j => V (ix4 b h j dd)) := by
  rw [Read.val_main_v14_apply]
  unfold softmaxRow
  refine Finset.sum_congr rfl fun k _ => ?_
  have el : Read.lidx_main_v14 (ix4 b h i dd) k = ix4 b h i k :=
    funext fun a => by match a with | ⟨0, _⟩ => rfl | ⟨1, _⟩ => rfl | ⟨2, _⟩ => rfl | ⟨3, _⟩ => rfl
  have er : Read.ridx_main_v14 (ix4 b h i dd) k = ix4 b h k dd :=
    funext fun a => by match a with | ⟨0, _⟩ => rfl | ⟨1, _⟩ => rfl | ⟨2, _⟩ => rfl | ⟨3, _⟩ => rfl
  rw [el, er, Read.val_main_v13_apply, expo_apply, rowSum_apply]
  rfl

end Cert.RefValue

end
-- ==== Proof.Bridge.lean ====
/-
  The kernel's result and the reference's are one array when every argument entry is a real number: entry
  (b, h, i, dd) of either is a softmax-weighted sum over the keys of (b, h), and the two-block online form of
  that sum is the one-piece form.
-/
import proofs.«406588_j47674136985727_3_alg».proof.Proof.AttnSpec
import proofs.«406588_j47674136985727_3_alg».proof.Proof.RefValue
import Idealize.ShloMosaic.Lib.Pipeline.Value

noncomputable section

namespace Cert.KernelIdeal.Attn

open Idealize.ShloMosaic Idealize.ShloMosaic.ValueIdx Cert.KernelIdeal Cert.OnlineSoftmax

/-- Batch `b` and head `h` merged into one coordinate of 64: sixteen heads to a batch. -/
abbrev bh (b : Fin 4) (h : Fin 16) : Fin 64 := ⟨16 * b.val + h.val, by have := b.isLt; have := h.isLt; omega⟩

/-- Splitting the merged axis: the [4, 16, 2048, 128] re-layout of a [64, 2048, 128] array reads, at (b, h, i, dd),
    the array at (16 b + h, i, dd): the two indices have the same row-major position. -/
theorem split_apply {α : Type} (X : S64x2048x128.Idx → α) (hc : S64x2048x128.ShapeCasts S4x16x2048x128)
    (b : Fin 4) (h : Fin 16) (i : Fin 2048) (dd : Fin 128) :
    shapeCast S4x16x2048x128 X hc (ix4 b h i dd) = X (ix3 (bh b h) i dd) := by
  refine shapeCast_apply X hc (ix4 b h i dd) (ix3 (bh b h) i dd) ?_
  rw [Shape.rowMajor_val_three, Shape.rowMajor_val_four]
  show ((16 * b.val + h.val) * 2048 + i.val) * 128 + dd.val
    = ((b.val * 16 + h.val) * 2048 + i.val) * 128 + dd.val
  omega

/-- Merging batch and head: the [64, 2048, 128] re-layout of a [4, 16, 2048, 128] array reads, at (16 b + h, i, e),
    the array at (b, h, i, e). -/
theorem merge_apply {α : Type} (X : S4x16x2048x128.Idx → α) (hc : S4x16x2048x128.ShapeCasts S64x2048x128)
    (b : Fin 4) (h : Fin 16) (i : Fin 2048) (e : Fin 128) :
    shapeCast S64x2048x128 X hc (ix3 (bh b h) i e) = X (ix4 b h i e) := by
  refine shapeCast_apply X hc (ix3 (bh b h) i e) (ix4 b h i e) ?_
  rw [Shape.rowMajor_val_three, Shape.rowMajor_val_four]
  show ((b.val * 16 + h.val) * 2048 + i.val) * 128 + e.val
    = ((16 * b.val + h.val) * 2048 + i.val) * 128 + e.val
  omega

/-- With real entries throughout, the kernel's result array is the reference's. -/
theorem attnOut_eq_ref [Cert.KernelIdeal.Facts] [Cert.ReferenceIdeal.Facts]
    (Q K V : S4x16x2048x128.Idx → EReal)
    (hQ : ∀ i, ∃ r : ℝ, Q i = (r : EReal)) (hK : ∀ i, ∃ r : ℝ, K i = (r : EReal))
    (hV : ∀ i, ∃ r : ℝ, V i = (r : EReal)) :
    attnOut Q K V = Cert.ReferenceIdeal.Read.val_main_v14 (F := Ideal) Q K V := by
  funext idx
  obtain ⟨b, h, i, dd, rfl⟩ : ∃ (b : Fin 4) (h : Fin 16) (i : Fin 2048) (dd : Fin 128), idx = ix4 b h i dd :=
    ⟨idx 0, idx 1, idx 2, idx 3, eq_ix4 idx⟩
  -- the reference's entry is the one-piece row softmax
  refine Eq.trans ?_ (Cert.RefValue.ref_apply Q K V b h i dd).symm
  -- the kernel's entry: split the merged axis, then read the three merged arguments entry by entry
  unfold attnOut
  refine (split_apply _ _ b h i dd).trans ?_
  have hm : ∀ (X : S4x16x2048x128.Idx → EReal) (i' : Fin 2048) (e : Fin 128),
      shapeCast S64x2048x128 X Facts₀.shapeCasts_S4x16x2048x128_S64x2048x128 (ix3 (bh b h) i' e) = X (ix4 b h i' e) :=
    fun X i' e => merge_apply X _ b h i' e
  show flashRow NEG BOT ZERO ONE
      (fun j => kScore INV
        (fun e => shapeCast S64x2048x128 Q Facts₀.shapeCasts_S4x16x2048x128_S64x2048x128 (ix3 (bh b h) i e))
        (fun e => shapeCast S64x2048x128 K Facts₀.shapeCasts_S4x16x2048x128_S64x2048x128 (ix3 (bh b h) (lo j) e)))
      (fun j => kScore INV
        (fun e => shapeCast S64x2048x128 Q Facts₀.shapeCasts_S4x16x2048x128_S64x2048x128 (ix3 (bh b h) i e))
        (fun e => shapeCast S64x2048x128 K Facts₀.shapeCasts_S4x16x2048x128_S64x2048x128 (ix3 (bh b h) (hi j) e)))
      (fun j => shapeCast S64x2048x128 V Facts₀.shapeCasts_S4x16x2048x128_S64x2048x128 (ix3 (bh b h) (lo j) dd))
      (fun j => shapeCast S64x2048x128 V Facts₀.shapeCasts_S4x16x2048x128_S64x2048x128 (ix3 (bh b h) (hi j) dd))
    = _
  simp only [hm]
  -- the two-block online form of the row is its one-piece form
  exact flashRow_eq_softmaxRow neg_real bot_eq zero_eq one_eq scale_inv
    (fun e => Q (ix4 b h i e)) (fun j e => K (ix4 b h j e)) (fun j => V (ix4 b h j dd))
    (fun e => hQ _) (fun j e => hK _) (fun j => hV _)

end Cert.KernelIdeal.Attn

end
-- ==== Proof.Finite.lean ====
/-
  The precondition read: every entry of the three argument arrays is a real number.
-/
import proofs.«406588_j47674136985727_3_alg».proof.Pre_finite_inputs
import proofs.«406588_j47674136985727_3_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic

/-- The pattern of plus infinity denotes the top element. -/
theorem inf_eq : Ideal.ofBits .f32 0x7F800000#32 = (⊤ : EReal) := by
  simp [Ideal.ofBits, Ideal.ieee]

/-- An extended real whose absolute value max x (−x) lies strictly below plus infinity is a real number:
    at ⊥ and at ⊤ the absolute value is ⊤, which is not below itself. -/
theorem real_of_abs_lt (x : EReal)
    (h : Ideal.cmp .olt (max x (-x)) (Ideal.ofBits .f32 0x7F800000#32) = 1#1) : ∃ r : ℝ, x = (r : EReal) := by
  rw [inf_eq] at h
  induction x using EReal.rec with
  | bot => simp [Ideal.cmp] at h
  | top => simp [Ideal.cmp] at h
  | coe r => exact ⟨r, rfl⟩

open Cert.Pre_finite_inputs in
/-- One array: where the conjunction over all entries of |x| < +∞ is one, every entry is a real number. -/
theorem real_of_all [Cert.Pre_finite_inputs.Facts] (x : FVec Ideal S4x16x2048x128 .f32)
    (h : Host.reduce IntOp.andi
        (cmpf .olt (Host.absf x)
          (broadcastInDim S4x16x2048x128 ![] Facts.bcast_S_S4x16x2048x128 (constant (F := Ideal) S_ .f32 0x7F800000#32)))
        (constantI S_ 1 1#1) Facts.reducesTo_S4x16x2048x128_S_d0_1_2_3 Facts.h_S_ ValueIdx.ix0 = 1#1) :
    ∀ i, ∃ r : ℝ, x i = (r : EReal) := by
  intro i
  -- the scalar shape has one index, so every entry reduces into the result
  haveI : Subsingleton S_.Idx := ⟨fun a b => funext fun d => d.elim0⟩
  exact real_of_abs_lt (x i) (Host.reduce_andi_all _ _ _ _ _ h i)

/-- Where the precondition's predicate is all ones, each of the three arrays holds real numbers only. -/
theorem real_of_pre [Cert.Pre_finite_inputs.Facts]
    (x0 x1 x2 : (⟨Cert.Pre_finite_inputs.S4x16x2048x128, .f32⟩ : BufTy).Contents (Elt Ideal))
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨real_of_all x0 h0', real_of_all x1 h1, real_of_all x2 h2⟩

end Cert.Finite

end
-- ==== Proof.lean ====
/-
  Scaled dot-product attention: a flash-attention kernel over two key blocks against the plain softmax reference.

  For query row i of batch·head bh the reference forms the scores x_j = (q_i · k_j) / D over all 2048 keys, shifts
  them by their maximum, exponentiates, divides by the sum and weighs the value rows. The kernel scales the query
  row by a constant named the exact reciprocal 1 / D of the reference's own scale, takes the keys in two blocks of
  1024, and keeps a running shift m (never below a finite floor), a running sum l and a running accumulator acc:
  a block replaces (m, l, acc) by (m', e^(m - m')·l + Σ_j e^(s_j - m'), e^(m - m')·acc + Σ_j e^(s_j - m')·v_j) with
  m' the larger of m and the block's maximum, and the last block's point stores acc · (1 / l).

  With every argument entry a real number (the precondition) the two scores are the same real,
  (q_i · (1/D)) · k_j = (q_i · k_j) / D, every shift is a real, and a softmax-weighted sum does not depend on the
  shift: e^(x - s) = e^x · e^(-s) puts the same positive factor on numerator and denominator. Rescaling the
  first block's sum and accumulator by e^(m1 - m2) moves them to the second block's shift, so the kernel's
  acc / l over the two blocks is the reference's weighted sum over all the keys.

  The three frames are the generated ones (the reference's is its generated run with the result dropped); the one
  rewrite of the idealization — the folded reciprocal read as the rational 1048576 / 11863283 — is its rule's
  statement.
-/
import proofs.«406588_j47674136985727_3_alg».proof.Defs
import proofs.«406588_j47674136985727_3_alg».proof.Proof.Gen.Kernel
import proofs.«406588_j47674136985727_3_alg».proof.Proof.Gen.Kernel.Skeleton
import proofs.«406588_j47674136985727_3_alg».proof.Proof.Gen.Kernel.Launch
import proofs.«406588_j47674136985727_3_alg».proof.Proof.Gen.Kernel.Points
import proofs.«406588_j47674136985727_3_alg».proof.Proof.Gen.Kernel.Frame
import proofs.«406588_j47674136985727_3_alg».proof.Proof.Gen.KernelIdeal
import proofs.«406588_j47674136985727_3_alg».proof.Proof.Gen.KernelIdeal.Skeleton
import proofs.«406588_j47674136985727_3_alg».proof.Proof.Gen.KernelIdeal.Launch
import proofs.«406588_j47674136985727_3_alg».proof.Proof.Gen.KernelIdeal.Points
import proofs.«406588_j47674136985727_3_alg».proof.Proof.Gen.KernelIdeal.Frame
import proofs.«406588_j47674136985727_3_alg».proof.Proof.Gen.ReferenceIdeal
import proofs.«406588_j47674136985727_3_alg».proof.Proof.Gen.ReferenceIdeal.Run
import proofs.«406588_j47674136985727_3_alg».proof.Proof.Gen.ReferenceIdeal.Read
import proofs.«406588_j47674136985727_3_alg».proof.Proof.Gen.Pre_finite_inputs
import proofs.«406588_j47674136985727_3_alg».proof.Proof.KernelRun
import proofs.«406588_j47674136985727_3_alg».proof.Proof.Bridge
import proofs.«406588_j47674136985727_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's folded reciprocal of the scale denotes, by the table of
    named constants, the rational 1048576 / 11863283 — the exact reciprocal of the scale the reference divides by. -/
theorem preserves : Cert.preserves_Kernel_KernelIdeal :=
  IdealRules.named_const.statement Cert.KernelIdeal.κ "inv_scale" .f32 0x3DB504F3#32 ((1048576 / 11863283 : ℝ) : EReal) rfl

/-- The kernel's result is the two-block online softmax attention of its arguments, the reference's the one-piece
    softmax attention of arguments that agree with them; with real entries the two are one array. -/
theorem algebraic : Cert.algebraic_KernelIdeal_ReferenceIdeal := by
  intro m ρ m' ρ' hpre hagree
  refine ⟨fun c => Cert.KernelIdeal.Attn.attnOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Attn.run m ρ, ?_⟩
  refine (θ_run Cert.ReferenceIdeal.defs _ _).mono (fun _ h c => ⟨(h c).1.trans ?_, (h c).2⟩)
    (Cert.ReferenceIdeal.Value.run (F := Ideal) m' ρ')
  obtain ⟨hQ, hK, hV⟩ := Cert.Finite.real_of_pre _ _ _ (hpre c)
  rw [(hagree c).1, (hagree c).2.1, (hagree c).2.2, Cert.ReferenceIdeal.Read.val_main_v14_eq]
  exact (Cert.KernelIdeal.Attn.attnOut_eq_ref _ _ _ hQ hK hV).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
